-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192 : Shape := ⟨1, ![8192]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) (main_arg1 : IVec S8192 32) (main_arg2 : FVec F S8192x1024 .f32) (main_arg3 : IVec S8192 32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg2
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  main_v8
-- ==== Kernel.lean ====
abbrev S8192x1024 : Shape := ⟨2, ![8192, 1024]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S512x1024 : Shape := ⟨2, ![512, 1024]⟩
abbrev S512x1 : Shape := ⟨2, ![512, 1]⟩
abbrev S1x512 : Shape := ⟨2, ![1, 512]⟩
abbrev S512x512 : Shape := ⟨2, ![512, 512]⟩
abbrev S512 : Shape := ⟨1, ![512]⟩

abbrev nBuf : Space → Nat
  | .hbm => 33
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192, .i32⟩
  | .hbm, ⟨2, _⟩ => ⟨S8192x1024, .f32⟩
  | .hbm, ⟨3, _⟩ => ⟨S8192, .i32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x1, .f32⟩
  | .hbm, ⟨12, _⟩ => ⟨S8192x1024, .f32⟩
  | .hbm, ⟨13, _⟩ => ⟨S8192x1024, .f32⟩
  | .hbm, ⟨14, _⟩ => ⟨S8192x1024, .bf16⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S8192x1024, .bf16⟩
  | .hbm, ⟨26, _⟩ => ⟨S8192x1, .i32⟩
  | .hbm, ⟨27, _⟩ => ⟨S1x8192, .i32⟩
  | .hbm, ⟨28, _⟩ => ⟨S8192x1, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1, .i32⟩
  | .local _ .vmem, ⟨5, _⟩ => ⟨S512x1, .i32⟩
  | .local _ .vmem, ⟨6, _⟩ => ⟨S1x512, .i32⟩
  | .local _ .vmem, ⟨7, _⟩ => ⟨S1x512, .i32⟩
  | .local _ .vmem, ⟨8, _⟩ => ⟨S512x1, .f32⟩
  | .local _ .vmem, ⟨9, _⟩ => ⟨S512x1, .f32⟩
  | .local _ .vmem, ⟨10, _⟩ => ⟨S512x1, .f32⟩
  | .local _ .vmem, ⟨11, _⟩ => ⟨S512x1, .f32⟩
  | .local _ .vmem, ⟨12, _⟩ => ⟨S512x1, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v51 : BitVec 1 := Scalar.cmpi .eq arg1 c15_i32
  let v52 : BitVec 32 := Scalar.extui v51
  let c0_i32_29 : BitVec 32 := 0#32
  let v53 : BitVec 1 := Scalar.cmpi .ne v52 c0_i32_29
  v53

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  reducesTo_S8192x1024_S8192_d1 : S8192x1024.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x1024_0_1 : S8192x1.BroadcastsInDim S8192x1024 (![0, 1] : Fin 2 → Fin S8192x1024.rank)
  bitsLt_bf16_f32 : FTy.bits .bf16 < FTy.bits .f32
  shapeCasts_S8192_S8192x1 : S8192.ShapeCasts S8192x1
  shapeCasts_S8192_S1x8192 : S8192.ShapeCasts S1x8192
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S512x1_S512x512 : S512x1.Broadcasts S512x512
  broadcasts_S1x512_S512x512 : S1x512.Broadcasts S512x512
  reduces_S512x512_S512 : S512x512.Reduces [1] S512
  shapeCasts_S512_S512x1 : S512.ShapeCasts S512x1
  natLt_1_32 : 1 < 32
  reducesTo_S8192x1_S_d0_1 : S8192x1.ReducesTo [0, 1] S_
  dot_S512x1024_S512x1024_S512x512_1_1_0_0_n_n_wf : DotDims.WF S512x1024 S512x1024 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .bf16 = 32 ∨ (Rect.block (s := S8192x1024) S512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S8192x1024.size a
  hwx0_1 : ∀ i : grid0.Coords, EltTy.bits .bf16 = 32 ∨ (Rect.block (s := S8192x1024) S512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .i32 = 32 ∨ (Rect.block (s := S8192x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x8192.size a
  hwx0_3 : ∀ i : grid0.Coords, EltTy.bits .i32 = 32 ∨ (Rect.block (s := S1x8192) S1x512.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S8192x1.size a
  hwx0_4 : ∀ i : grid0.Coords, EltTy.bits .f32 = 32 ∨ (Rect.block (s := S8192x1) S512x1.size (cc0_transform_4 i) (hinb0_4 i)).WholeWords (EltTy.packing .f32)

variable [Facts₀]

def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf

abbrev win0_0 : Pipeline.Window sig grid0 :=
  Pipeline.Window.ofSpec (Memref.whole main_v8) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v20) S512x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x1024 : Shape := ⟨2, ![8192, 1024]⟩
abbrev S8192 : Shape := ⟨1, ![8192]⟩
abbrev S_ : Shape := ⟨0, ![]⟩
abbrev S8192x1 : Shape := ⟨2, ![8192, 1]⟩
abbrev S1024x8192 : Shape := ⟨2, ![1024, 8192]⟩
abbrev S8192x8192 : Shape := ⟨2, ![8192, 8192]⟩
abbrev S1x8192 : Shape := ⟨2, ![1, 8192]⟩

abbrev nBuf : Space → Nat
  | .hbm => 66
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192, .i32⟩
  | .hbm, ⟨2, _⟩ => ⟨S8192x1024, .f32⟩
  | .hbm, ⟨3, _⟩ => ⟨S8192, .i32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S_, .f32⟩
  | .hbm, ⟨8, _⟩ => ⟨S8192, .f32⟩
  | .hbm, ⟨9, _⟩ => ⟨S8192, .f32⟩
  | .hbm, ⟨10, _⟩ => ⟨S8192, .f32⟩
  | .hbm, ⟨11, _⟩ => ⟨S8192x1, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S_, .f32⟩
  | .hbm, ⟨18, _⟩ => ⟨S8192, .f32⟩
  | .hbm, ⟨19, _⟩ => ⟨S8192, .f32⟩
  | .hbm, ⟨20, _⟩ => ⟨S8192, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1024x8192, .f32⟩
  | .hbm, ⟨25, _⟩ => ⟨S8192x8192, .f32⟩
  | .hbm, ⟨26, _⟩ => ⟨S8192x1, .i32⟩
  | .hbm, ⟨27, _⟩ => ⟨S1x8192, .i32⟩
  | .hbm, ⟨28, _⟩ => ⟨S8192x8192, .i32⟩
  | .hbm, ⟨29, _⟩ => ⟨S8192x8192, .i32⟩
  | .hbm, ⟨30, _⟩ => ⟨S8192x8192, .i1⟩
  | .hbm, ⟨31, _⟩ => ⟨S_, .f32⟩
  | .hbm, ⟨32, _⟩ => ⟨S8192x8192, .f32⟩
  | .hbm, ⟨33, _⟩ => ⟨S8192x8192, .i1⟩
  | .hbm, ⟨34, _⟩ => ⟨S8192x8192, .i1⟩
  | .hbm, ⟨35, _⟩ => ⟨S8192x8192, .i1⟩
  | .hbm, ⟨36, _⟩ => ⟨S_, .f32⟩
  | .hbm, ⟨37, _⟩ => ⟨S8192x8192, .f32⟩
  | .hbm, ⟨38, _⟩ => ⟨S8192x8192, .i1⟩
  | .hbm, ⟨39, _⟩ => ⟨S8192x8192, .i1⟩
  | .hbm, ⟨40, _⟩ => ⟨S_, .f32⟩
  | .hbm, ⟨41, _⟩ => ⟨S8192x8192, .f32⟩
  | .hbm, ⟨42, _⟩ => ⟨S8192x8192, .f32⟩
  | .hbm, ⟨43, _⟩ => ⟨S_, .f32⟩
  | .hbm, ⟨44, _⟩ => ⟨S_, .f32⟩
  | .hbm, ⟨45, _⟩ => ⟨S8192x8192, .f32⟩
  | .hbm, ⟨46, _⟩ => ⟨S8192x8192, .f32⟩
  | .hbm, ⟨47, _⟩ => ⟨S_, .f32⟩
  | .hbm, ⟨48, _⟩ => ⟨S8192, .f32⟩
  | .hbm, ⟨49, _⟩ => ⟨S_, .f32⟩
  | .hbm, ⟨50, _⟩ => ⟨S_, .f32⟩
  | .hbm, ⟨51, _⟩ => ⟨S8192x8192, .f32⟩
  | .hbm, ⟨52, _⟩ => ⟨S8192x8192, .f32⟩
  | .hbm, ⟨53, _⟩ => ⟨S_, .f32⟩
  | .hbm, ⟨54, _⟩ => ⟨S8192, .f32⟩
  | .hbm, ⟨55, _⟩ => ⟨S_, .i1⟩
  | .hbm, ⟨56, _⟩ => ⟨S8192, .i1⟩
  | .hbm, ⟨57, _⟩ => ⟨S8192, .f32⟩
  | .hbm, ⟨58, _⟩ => ⟨S_, .f32⟩
  | .hbm, ⟨59, _⟩ => ⟨S_, .f32⟩
  | .hbm, ⟨60, _⟩ => ⟨S8192, .f32⟩
  | .hbm, ⟨61, _⟩ => ⟨S8192, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_v31 : Ref sig .tc := ⟨.hbm, 42, rfl⟩
abbrev main_cst_6 : Ref sig .tc := ⟨.hbm, 43, rfl⟩
abbrev main_call0_v0 : Ref sig .tc := ⟨.hbm, 44, rfl⟩
abbrev main_call0_v1 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_cst_8 : Ref sig .tc := ⟨.hbm, 49, rfl⟩
abbrev main_call1_v0 : Ref sig .tc := ⟨.hbm, 50, rfl⟩
abbrev main_call1_v1 : Ref sig .tc := ⟨.hbm, 51, rfl⟩
abbrev main_v34 : Ref sig .tc := ⟨.hbm, 52, rfl⟩
abbrev main_cst_9 : Ref sig .tc := ⟨.hbm, 53, rfl⟩
abbrev main_v35 : Ref sig .tc := ⟨.hbm, 54, rfl⟩
abbrev main_c : Ref sig .tc := ⟨.hbm, 55, rfl⟩
abbrev main_v36 : Ref sig .tc := ⟨.hbm, 56, rfl⟩
abbrev main_v37 : Ref sig .tc := ⟨.hbm, 57, rfl⟩
abbrev main_cst_10 : Ref sig .tc := ⟨.hbm, 58, rfl⟩
abbrev main_call2_v0 : Ref sig .tc := ⟨.hbm, 59, rfl⟩
abbrev main_call2_v1 : Ref sig .tc := ⟨.hbm, 60, rfl⟩
abbrev main_v38 : Ref sig .tc := ⟨.hbm, 61, rfl⟩
abbrev main_cst_11 : Ref sig .tc := ⟨.hbm, 62, rfl⟩
abbrev main_v39 : Ref sig .tc := ⟨.hbm, 63, rfl⟩
abbrev main_cst_12 : Ref sig .tc := ⟨.hbm, 64, rfl⟩
abbrev main_v40 : Ref sig .tc := ⟨.hbm, 65, rfl⟩

abbrev nD : Nat := 1
abbrev τ : Topo := Topo.v7x

variable {F : FTy → Type} [FloatOps F]

class Facts₀ : Prop where
  reducesTo_S8192x1024_S8192_d1 : S8192x1024.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x1024_0_1 : S8192x1.BroadcastsInDim S8192x1024 (![0, 1] : Fin 2 → Fin S8192x1024.rank)
  transposes_S8192x1024_S1024x8192_1_0 : S8192x1024.Transposes [1, 0] S1024x8192
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  reducesTo_S8192_S_d0 : S8192.ReducesTo [0] S_
  dot_S8192x1024_S1024x8192_S8192x8192_1_0_0_1_n_n_wf : DotDims.WF S8192x1024 S1024x8192 S8192x8192 [1] [0] [0] [1] [] []

variable [Facts₀]

def dot_S8192x1024_S1024x8192_S8192x8192_1_0_0_1_n_n : DotDims S8192x1024 S1024x8192 S8192x8192 where
  lhsContracting := [1]
  rhsContracting := [0]
  lhsNonContracting := [0]
  rhsNonContracting := [1]
  lhsBatch := []
  rhsBatch := []
  wf := dot_S8192x1024_S1024x8192_S8192x8192_1_0_0_1_n_n_wf

class Facts : Prop extends Facts₀ where

variable [Facts]
-- ==== Proof.BodyCases.lean ====
/-
  What one run of the body leaves behind, per control case, as terms over the body's payloads.

  The body has three cases along the column axis of the grid. At the first column tile it clears the three running
  accumulators (positive sum, negative sum, has-positive flag) and then folds this tile in; at a middle tile it folds the
  tile into what the tile before left; at the last tile it does the same and then stores the row block's loss, computed
  from the three accumulators it has just updated. Each lemma names what a buffer holds after the run:
  an accumulator is "update (this tile's reduction) (its contents before)", where "before" is the freshly stored zero
  block in the first case; the stored loss is the select over the three updated accumulators.
-/
import proofs.«157751_j10222022165007_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Cases

open Cert.KernelIdeal Cert.KernelIdeal.Gen

variable {F : FTy → Type} [FloatOps F]

theorem hz : (![0, 0] : Fin 2 → Nat) = fun _ => 0 := funext fun a => by fin_cases a <;> rfl

theorem left_A_0 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : cond0_0 i) (hc1 : ¬cond0_1 i) (x0 : Vec F S512x1024 .bf16) (x1 : Vec F S512x1024 .bf16) (x2 : Vec F S512x1 .i32) (x3 : Vec F S1x512 .i32) :
    sout0_A_0 c i arg2 harg2 arg3 harg3 arg4 harg4 arg5 harg5 arg6 harg6 arg7 harg7 arg8 harg8 arg9 harg9 hc0 hc1 x0 x1 x2 x3 = k0_pay1 (k0_pay11 x0 x1 x2 x3) (k0_pay5 (F := F)) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S512x1) hz, View.readCov_unit_zero (S := S512x1) _ hz]
  simp only [View.readAt_eq_ld, harg2.read_unread, harg3.read_unread, harg4.read_unread, harg5.read_unread, harg6.read_unread, harg7.read_unread, harg8.read_unread, harg9.read_unread, View.ld_unit_zero (S := S512x1) hz, View.ld_unit_zero (S := S512x1024) hz, View.ld_unit_zero (S := S1x512) hz]

theorem left_A_1 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : cond0_0 i) (hc1 : ¬cond0_1 i) (x0 : Vec F S512x1024 .bf16) (x1 : Vec F S512x1024 .bf16) (x2 : Vec F S512x1 .i32) (x3 : Vec F S1x512 .i32) :
    sout0_A_1 c i arg2 harg2 arg3 harg3 arg4 harg4 arg5 harg5 arg6 harg6 arg7 harg7 arg8 harg8 arg9 harg9 hc0 hc1 x0 x1 x2 x3 = k0_pay2 (k0_pay12 x0 x1 x2 x3) (k0_pay6 (F := F)) := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S512x1) hz, View.readCov_unit_zero (S := S512x1) _ hz]
  simp only [View.readAt_eq_ld, harg2.read_unread, harg3.read_unread, harg4.read_unread, harg5.read_unread, harg6.read_unread, harg7.read_unread, harg8.read_unread, harg9.read_unread, View.ld_unit_zero (S := S512x1) hz, View.ld_unit_zero (S := S512x1024) hz, View.ld_unit_zero (S := S1x512) hz]

theorem left_A_2 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : cond0_0 i) (hc1 : ¬cond0_1 i) (x0 : Vec F S512x1024 .bf16) (x1 : Vec F S512x1024 .bf16) (x2 : Vec F S512x1 .i32) (x3 : Vec F S1x512 .i32) :
    sout0_A_2 c i arg2 harg2 arg3 harg3 arg4 harg4 arg5 harg5 arg6 harg6 arg7 harg7 arg8 harg8 arg9 harg9 hc0 hc1 x0 x1 x2 x3 = k0_pay3 (k0_pay13 x0 x1 x2 x3) (k0_pay7 (F := F)) := by
  unfold sout0_A_2
  rw [View.read_writes_eq_canon _ _ _ (scover0_A_2 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S512x1) hz, View.readCov_unit_zero (S := S512x1) _ hz]
  simp only [View.readAt_eq_ld, harg2.read_unread, harg3.read_unread, harg4.read_unread, harg5.read_unread, harg6.read_unread, harg7.read_unread, harg8.read_unread, harg9.read_unread, View.ld_unit_zero (S := S512x1) hz, View.ld_unit_zero (S := S512x1024) hz, View.ld_unit_zero (S := S1x512) hz]

theorem left_B_0 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond0_0 i) (hc1 : ¬cond0_1 i) (x0 : Vec F S512x1024 .bf16) (x1 : Vec F S512x1024 .bf16) (x2 : Vec F S512x1 .i32) (x3 : Vec F S1x512 .i32) (xs0 : Vec F S512x1 .f32) (xs1 : Vec F S512x1 .f32) (xs2 : Vec F S512x1 .f32) :
    sout0_B_0 c i arg2 harg2 arg3 harg3 arg4 harg4 arg5 harg5 arg6 harg6 arg7 harg7 arg8 harg8 arg9 harg9 hc0 hc1 x0 x1 x2 x3 xs0 xs1 xs2 = k0_pay1 (k0_pay11 x0 x1 x2 x3) xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, View.ld_unit_zero (S := S512x1) hz, View.ld_unit_zero (S := S512x1024) hz, View.ld_unit_zero (S := S1x512) hz]

theorem left_B_1 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond0_0 i) (hc1 : ¬cond0_1 i) (x0 : Vec F S512x1024 .bf16) (x1 : Vec F S512x1024 .bf16) (x2 : Vec F S512x1 .i32) (x3 : Vec F S1x512 .i32) (xs0 : Vec F S512x1 .f32) (xs1 : Vec F S512x1 .f32) (xs2 : Vec F S512x1 .f32) :
    sout0_B_1 c i arg2 harg2 arg3 harg3 arg4 harg4 arg5 harg5 arg6 harg6 arg7 harg7 arg8 harg8 arg9 harg9 hc0 hc1 x0 x1 x2 x3 xs0 xs1 xs2 = k0_pay2 (k0_pay12 x0 x1 x2 x3) xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, View.ld_unit_zero (S := S512x1) hz, View.ld_unit_zero (S := S512x1024) hz, View.ld_unit_zero (S := S1x512) hz]

theorem left_B_2 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond0_0 i) (hc1 : ¬cond0_1 i) (x0 : Vec F S512x1024 .bf16) (x1 : Vec F S512x1024 .bf16) (x2 : Vec F S512x1 .i32) (x3 : Vec F S1x512 .i32) (xs0 : Vec F S512x1 .f32) (xs1 : Vec F S512x1 .f32) (xs2 : Vec F S512x1 .f32) :
    sout0_B_2 c i arg2 harg2 arg3 harg3 arg4 harg4 arg5 harg5 arg6 harg6 arg7 harg7 arg8 harg8 arg9 harg9 hc0 hc1 x0 x1 x2 x3 xs0 xs1 xs2 = k0_pay3 (k0_pay13 x0 x1 x2 x3) xs2 := by
  unfold sout0_B_2
  rw [View.read_writes_eq_canon _ _ _ (scover0_B_2 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, View.ld_unit_zero (S := S512x1) hz, View.ld_unit_zero (S := S512x1024) hz, View.ld_unit_zero (S := S1x512) hz]

theorem left_C_0 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond0_0 i) (hc1 : cond0_1 i) (x0 : Vec F S512x1024 .bf16) (x1 : Vec F S512x1024 .bf16) (x2 : Vec F S512x1 .i32) (x3 : Vec F S1x512 .i32) (xs0 : Vec F S512x1 .f32) (xs1 : Vec F S512x1 .f32) (xs2 : Vec F S512x1 .f32) :
    sout0_C_0 c i arg2 harg2 arg3 harg3 arg4 harg4 arg5 harg5 arg6 harg6 arg7 harg7 arg8 harg8 arg9 harg9 hc0 hc1 x0 x1 x2 x3 xs0 xs1 xs2 = k0_pay1 (k0_pay11 x0 x1 x2 x3) xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, View.ld_unit_zero (S := S512x1) hz, View.ld_unit_zero (S := S512x1024) hz, View.ld_unit_zero (S := S1x512) hz]

theorem left_C_1 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond0_0 i) (hc1 : cond0_1 i) (x0 : Vec F S512x1024 .bf16) (x1 : Vec F S512x1024 .bf16) (x2 : Vec F S512x1 .i32) (x3 : Vec F S1x512 .i32) (xs0 : Vec F S512x1 .f32) (xs1 : Vec F S512x1 .f32) (xs2 : Vec F S512x1 .f32) :
    sout0_C_1 c i arg2 harg2 arg3 harg3 arg4 harg4 arg5 harg5 arg6 harg6 arg7 harg7 arg8 harg8 arg9 harg9 hc0 hc1 x0 x1 x2 x3 xs0 xs1 xs2 = k0_pay2 (k0_pay12 x0 x1 x2 x3) xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, View.ld_unit_zero (S := S512x1) hz, View.ld_unit_zero (S := S512x1024) hz, View.ld_unit_zero (S := S1x512) hz]

theorem left_C_2 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond0_0 i) (hc1 : cond0_1 i) (x0 : Vec F S512x1024 .bf16) (x1 : Vec F S512x1024 .bf16) (x2 : Vec F S512x1 .i32) (x3 : Vec F S1x512 .i32) (xs0 : Vec F S512x1 .f32) (xs1 : Vec F S512x1 .f32) (xs2 : Vec F S512x1 .f32) :
    sout0_C_2 c i arg2 harg2 arg3 harg3 arg4 harg4 arg5 harg5 arg6 harg6 arg7 harg7 arg8 harg8 arg9 harg9 hc0 hc1 x0 x1 x2 x3 xs0 xs1 xs2 = k0_pay3 (k0_pay13 x0 x1 x2 x3) xs2 := by
  unfold sout0_C_2
  rw [View.read_writes_eq_canon _ _ _ (scover0_C_2 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, View.ld_unit_zero (S := S512x1) hz, View.ld_unit_zero (S := S512x1024) hz, View.ld_unit_zero (S := S1x512) hz]

theorem stored_C (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond0_0 i) (hc1 : cond0_1 i) (x0 : Vec F S512x1024 .bf16) (x1 : Vec F S512x1024 .bf16) (x2 : Vec F S512x1 .i32) (x3 : Vec F S1x512 .i32) (xs0 : Vec F S512x1 .f32) (xs1 : Vec F S512x1 .f32) (xs2 : Vec F S512x1 .f32) :
    out0_C_4 c i arg2 harg2 arg3 harg3 arg4 harg4 arg5 harg5 arg6 harg6 arg7 harg7 arg8 harg8 arg9 harg9 hc0 hc1 x0 x1 x2 x3 xs0 xs1 xs2 = k0_pay4 (k0_pay3 (k0_pay13 x0 x1 x2 x3) xs2) (k0_pay1 (k0_pay11 x0 x1 x2 x3) xs0) (k0_pay2 (k0_pay12 x0 x1 x2 x3) xs1) := by
  unfold out0_C_4
  rw [View.read_writes_eq_canon _ _ _ (cover0_C_4 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, View.ld_unit_zero (S := S512x1) hz, View.ld_unit_zero (S := S512x1024) hz, View.ld_unit_zero (S := S1x512) hz, View.readCov_unit_zero (S := S512x1) _ hz]

end Cert.KernelIdeal.Cases

end
-- ==== Proof.Loss.lean ====
/-
  The contrastive loss over the extended reals, as one function of a similarity matrix and a label-agreement matrix,
  and the three facts that let a tiled evaluation be compared with a whole-row one.

  For row r and column j, with s the similarity of the pair and e the bit "the two labels agree":
  the pair is POSITIVE when e holds and s lies below the cap, NEGATIVE when e fails and s lies above the margin.
  A positive pair contributes 1 - s, a negative pair contributes s, every other pair contributes the zero word.
  A row's loss is the sum of both kinds of contributions when the row has at least one positive pair, and the zero word
  otherwise; the loss is the sum of the rows' losses divided by the row count.

  (1) A sum over the 8192 columns is the sum, over the 16 column tiles, of the sums inside each tile: addition of
      extended reals is commutative and associative, so no finiteness is needed.
  (2) "Some pair of the row is positive" can be carried as a running maximum of 0/1 values started at zero: the
      maximum exceeds one half exactly when one of the values is the 1.
  (3) The same statement read as a disjunction of bits.
-/
import Idealize.ShloMosaic.PureOps.Ideal
import Idealize.ShloMosaic.PureOps.Ideal.Laws
import Idealize.ShloMosaic.Lib.ValueIdx
import Idealize.ShloMosaic.Lib.Pipeline.Value

noncomputable section

namespace Cert.Loss

open Idealize.ShloMosaic Idealize.ShloMosaic.ValueIdx

/-! ## The words both programs share, as the extended reals they denote -/

abbrev zeroW : EReal := Ideal.ofBits .f32 0x00000000#32
abbrev oneW : EReal := Ideal.ofBits .f32 0x3F800000#32
abbrev capW : EReal := Ideal.ofBits .f32 0x3F7FFF58#32
abbrev halfW : EReal := Ideal.ofBits .f32 0x3F000000#32
abbrev countW : EReal := Ideal.ofBits .f32 0x46000000#32
abbrev negInfW : EReal := Ideal.ofBits .f32 0xFF800000#32

/-! ## One pair -/

/-- The pair is positive: the labels agree and the similarity is below the cap. -/
def posBit (e : BitVec 1) (s : EReal) : BitVec 1 := IntOp.andi e (Ideal.cmp .olt s capW)
/-- The pair is negative: the labels differ and the similarity is above the margin. -/
def negBit (e : BitVec 1) (s : EReal) : BitVec 1 := IntOp.andi (IntOp.xori e 1#1) (Ideal.cmp .ogt s halfW)
/-- A positive pair's contribution, 1 - s; the zero word otherwise. -/
def posTerm (e : BitVec 1) (s : EReal) : EReal := Scalar.select (posBit e s) (oneW - s) zeroW
/-- A negative pair's contribution, s; the zero word otherwise. -/
def negTerm (e : BitVec 1) (s : EReal) : EReal := Scalar.select (negBit e s) s zeroW
/-- A bit as the float 0 or 1: widened to a word, then converted. -/
def flagOf (b : BitVec 1) : EReal := (((b.setWidth 32).toInt : ℝ) : EReal)

/-- A bit is clear or set. -/
theorem bit_cases : ∀ b : BitVec 1, b = 0#1 ∨ b = 1#1 := by decide

/-- The complement of one bit is its exclusive-or with the set bit. -/
theorem not_eq_xor_one : ∀ e : BitVec 1, ~~~e = IntOp.xori e 1#1 := by decide

/-! ## One row, and the loss -/

section Row
variable (sim : Fin 8192 → Fin 8192 → EReal) (same : Fin 8192 → Fin 8192 → BitVec 1)

/-- The row's positive contributions, summed over every column. -/
def rowPos (r : Fin 8192) : EReal := ∑ j : Fin 8192, posTerm (same r j) (sim r j)
/-- The row's negative contributions, summed over every column. -/
def rowNeg (r : Fin 8192) : EReal := ∑ j : Fin 8192, negTerm (same r j) (sim r j)
/-- The row has a positive pair: the disjunction of the pairs' bits, from the clear bit. -/
def rowAny (r : Fin 8192) : BitVec 1 :=
  (Finset.univ : Finset (Fin 8192)).fold IntOp.ori 0#1 fun j => posBit (same r j) (sim r j)
/-- The row's loss: both sums, each started at the zero word, when the row has a positive pair. -/
def rowLoss (r : Fin 8192) : EReal :=
  Scalar.select (rowAny sim same r) ((zeroW + rowPos sim same r) + (zeroW + rowNeg sim same r)) zeroW
/-- The loss: the rows' losses summed from the zero word, over the row count. -/
def total : EReal := Ideal.div (zeroW + ∑ r : Fin 8192, rowLoss sim same r) countW

end Row

/-! ## (1) Sixteen tiles of 512 columns -/

/-- Column q of tile s. -/
def tileIx (s : Fin 16) (q : Fin 512) : Fin 8192 := ⟨512 * s.val + q.val, by have := s.isLt; have := q.isLt; omega⟩

theorem sum_range_tiles {M : Type*} [AddCommMonoid M] (b : ℕ) (f : ℕ → M) :
    ∀ a : ℕ, ∑ j ∈ Finset.range (b * a), f j = ∑ s ∈ Finset.range a, ∑ q ∈ Finset.range b, f (b * s + q)
  | 0 => by simp
  | a + 1 => by
    rw [Nat.mul_succ, Finset.sum_range_add, sum_range_tiles b f a, Finset.sum_range_succ]

/-- A sum over the 8192 columns, tile by tile. -/
theorem sum_tiles {M : Type*} [AddCommMonoid M] (f : Fin 8192 → M) :
    ∑ j : Fin 8192, f j = ∑ s : Fin 16, ∑ q : Fin 512, f (tileIx s q) := by
  classical
  let g : ℕ → M := fun n => if h : n < 8192 then f ⟨n, h⟩ else 0
  have hg : ∀ j : Fin 8192, f j = g j.val := fun j => by simp only [g, dif_pos j.isLt]
  have hL : ∑ j : Fin 8192, f j = ∑ j ∈ Finset.range (512 * 16), g j := by
    rw [← Fin.sum_univ_eq_sum_range g 8192]
    exact Finset.sum_congr rfl fun j _ => hg j
  rw [hL, sum_range_tiles 512 g 16, ← Fin.sum_univ_eq_sum_range (fun s => ∑ q ∈ Finset.range 512, g (512 * s + q)) 16]
  refine Finset.sum_congr rfl fun s _ => ?_
  rw [← Fin.sum_univ_eq_sum_range (fun q => g (512 * s.val + q)) 512]
  exact Finset.sum_congr rfl fun q _ => (hg (tileIx s q)).symm

/-! ## (2) A running maximum of flags against one half -/

theorem half_eq : halfW = ((1 / 2 : ℝ) : EReal) := by
  simp [halfW, Ideal.ofBits, Ideal.ieee]
  rw [← EReal.coe_mul]
  exact congrArg _ (by norm_num)

theorem not_half_lt_zeroW : ¬halfW < zeroW := by
  rw [half_eq, show zeroW = 0 from Ideal.ofBits_zero_f32]
  exact not_lt.2 (by exact_mod_cast (by norm_num : (0 : ℝ) ≤ 1 / 2))

theorem not_half_lt_negInfW : ¬halfW < negInfW := by
  have : negInfW = ⊥ := by simp [negInfW, Ideal.ofBits, Ideal.ieee]
  rw [this]; exact not_lt_bot

theorem half_lt_flagOf : ∀ b : BitVec 1, halfW < flagOf b ↔ b = 1#1 := by
  intro b
  rw [half_eq]
  have hb : b = 0#1 ∨ b = 1#1 := bit_cases b
  rcases hb with rfl | rfl
  · have : flagOf 0#1 = ((0 : ℝ) : EReal) := by simp [flagOf]
    rw [this]
    constructor
    · intro h; exfalso; exact absurd (EReal.coe_lt_coe_iff.1 h) (by norm_num)
    · intro h; exact absurd h (by decide)
  · have : flagOf 1#1 = ((1 : ℝ) : EReal) := by simp [flagOf]
    rw [this]
    exact ⟨fun _ => rfl, fun _ => EReal.coe_lt_coe_iff.2 (by norm_num)⟩

/-- The running maximum over a run of points: started as max z (M b) with z not above c, each later point taking
    the maximum with its own M, it exceeds c exactly when some point's M does. -/
theorem accAt_max_lt {ι β : Type*} [LinearOrder β] {N : ℕ} (a : (n : Nat) → n < N → ι → β)
    (g : (n : Nat) → n < N → (ι → β) → ι → β) (c z : β) (hz : ¬c < z) (M : Nat → ι → β) (b e : Nat)
    (ha : ∀ (h : b < N) (i : ι), a b h i = max z (M b i))
    (hg : ∀ (n : Nat) (h : n < N) (acc : ι → β) (i : ι), b < n → n ≤ b + e → g n h acc i = max (acc i) (M n i)) :
    ∀ (j : Nat), j ≤ e → ∀ (h : b + j < N) (i : ι),
      c < Pipeline.accAt a g b j h i ↔ ∃ s, s ≤ j ∧ c < M (b + s) i
  | 0, _, h, i => by
    rw [Pipeline.accAt_zero, ha, lt_max_iff]
    constructor
    · rintro (h' | h')
      · exact absurd h' hz
      · exact ⟨0, le_refl _, h'⟩
    · rintro ⟨s, hs, h'⟩
      obtain rfl : s = 0 := Nat.le_zero.1 hs
      exact Or.inr h'
  | j + 1, hj, h, i => by
    rw [Pipeline.accAt_succ, hg (b + (j + 1)) h _ i (by omega) (by omega), lt_max_iff,
      accAt_max_lt a g c z hz M b e ha hg j (Nat.le_of_succ_le hj) (Nat.lt_of_succ_lt h) i]
    constructor
    · rintro (⟨s, hs, h'⟩ | h')
      · exact ⟨s, Nat.le_succ_of_le hs, h'⟩
      · exact ⟨j + 1, le_refl _, h'⟩
    · rintro ⟨s, hs, h'⟩
      rcases Nat.lt_or_ge s (j + 1) with hlt | hge
      · exact Or.inl ⟨s, Nat.lt_succ_iff.1 hlt, h'⟩
      · obtain rfl : s = j + 1 := le_antisymm hs hge
        exact Or.inr h'

/-- A tile's maximum of flags, started at minus infinity, exceeds one half exactly when one of the bits is set. -/
theorem half_lt_fold_flags {n : ℕ} (bit : Fin n → BitVec 1) :
    halfW < (Finset.univ : Finset (Fin n)).fold max negInfW (fun q => flagOf (bit q)) ↔ ∃ q, bit q = 1#1 := by
  rw [Finset.lt_fold_max]
  constructor
  · rintro (h | ⟨q, _, h⟩)
    · exact absurd h not_half_lt_negInfW
    · exact ⟨q, (half_lt_flagOf _).1 h⟩
  · rintro ⟨q, h⟩
    exact Or.inr ⟨q, Finset.mem_univ _, (half_lt_flagOf _).2 h⟩

/-! ## (3) The disjunction of a row's bits -/

instance : Std.Commutative (IntOp.ori : BitVec 1 → BitVec 1 → BitVec 1) := ⟨by decide⟩
instance : Std.Associative (IntOp.ori : BitVec 1 → BitVec 1 → BitVec 1) := ⟨by decide⟩

/-- The disjunction of finitely many bits, from the clear bit, is set exactly when one of them is. -/
theorem fold_ori_eq_one {α : Type*} [DecidableEq α] (s : Finset α) (bit : α → BitVec 1) :
    s.fold IntOp.ori 0#1 bit = 1#1 ↔ ∃ j ∈ s, bit j = 1#1 := by
  induction s using Finset.induction_on with
  | empty => simp
  | insert a s ha ih =>
    rw [Finset.fold_insert ha]
    have key : ∀ x y : BitVec 1, IntOp.ori x y = 1#1 ↔ x = 1#1 ∨ y = 1#1 := by decide
    rw [key, ih]
    constructor
    · rintro (h | ⟨j, hj, h⟩)
      · exact ⟨a, Finset.mem_insert_self _ _, h⟩
      · exact ⟨j, Finset.mem_insert_of_mem hj, h⟩
    · rintro ⟨j, hj, h⟩
      rcases Finset.mem_insert.1 hj with rfl | hj
      · exact Or.inl h
      · exact Or.inr ⟨j, hj, h⟩

/-- A comparison against one half, as a bit, is the bit that says so. -/
theorem cmp_ogt_half_eq (x : EReal) (b : BitVec 1) (h : halfW < x ↔ b = 1#1) : Ideal.cmp .ogt x halfW = b := by
  unfold Ideal.cmp
  have hb : b = 0#1 ∨ b = 1#1 := bit_cases b
  by_cases hx : halfW < x
  · rw [h.1 hx]; simp [hx]
  · rcases hb with rfl | rfl
    · simp [hx]
    · exact absurd (h.2 rfl) hx

end Cert.Loss

end
-- ==== Proof.LibColumns.lean ====
/-
  Layout operations of the "keepdims" kind read at an index, and the index a one-axis reduction sums over.

  A row-wise reduction `[a, b] → [a]` that keeps its axis is printed as the reduction, a cast of the `[a]` result to the
  column `[a, 1]`, and a broadcast of that column back over `[a, b]`. Each lemma reads one of these at an index given by
  its coordinates: the column at `(r, ·)` is the vector at `r`; the broadcast at `(r, c)` is the column at `r`; and the
  indices a reduction along axis 1 (or axis 0) sums over, for the kept coordinate `r`, are `(r, k)` (or `(k, r)`).
-/
import Idealize.ShloMosaic.Lib.Pipeline.Value
import Idealize.ShloMosaic.Lib.ValueLayout
import Idealize.ShloMosaic.PureOps.Ideal.Laws

noncomputable section

namespace Cert.LibColumns

open Idealize.ShloMosaic Idealize.ShloMosaic.ValueIdx

variable {α : Type}

/-- An `[a]` array cast to the column `[a, 1]` reads, at `(r, u)`, the operand at `r`, whatever the unit coordinate. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast to `[a, b]` reads, at `(r, c)`, the column's entry of row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- Reducing axis 1 of `[a, b]`: the kept coordinate `r` with the reduced coordinate `k` put back is `(r, k)`. -/
theorem lift_axis1 {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- Reducing axis 0 of `[a, b]`: the kept coordinate `c` with the reduced coordinate `k` put back is `(k, c)`. -/
theorem lift_axis0 {a b : ℕ} (h : (⟨2, ![a, b]⟩ : Shape).Reduces [0] (⟨1, ![b]⟩ : Shape)) (c : Fin b)
    (k : Fin ((⟨2, ![a, b]⟩ : Shape).size 0)) : h.lift (ix1 c) k = ix2 (⟨k.val, k.isLt⟩ : Fin a) c := by
  funext d; apply Fin.ext
  fin_cases d <;> rfl

/-- A float sum along axis 1 of `[a, b]`, at the ideal values: at `r` it is the sum over the row's `b` entries. -/
theorem rowSum_apply {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (r : Fin a) : multiReduction .add [1] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_axis1 h r k)

/-- A float sum along axis 0 of `[a, b]`, at the ideal values: at `c` it is the sum over the column's `a` entries. -/
theorem colSum_apply {a b : ℕ} {φ : FTy} (src : FVec Ideal ⟨2, ![a, b]⟩ φ) (acc : BitVec φ.bits)
    (h : (⟨2, ![a, b]⟩ : Shape).Reduces [0] (⟨1, ![b]⟩ : Shape)) (hφ : FKind.Formats φ) (hacc : acc = FKind.add.neutral φ hφ)
    (c : Fin b) : multiReduction .add [0] ⟨1, ![b]⟩ src acc h hφ hacc (ix1 c) = ∑ k : Fin a, src (ix2 k c) := by
  refine (Ideal.multiReduction_add_single src acc h hφ hacc (ix1 c)).trans ?_
  exact Finset.sum_congr rfl fun k _ => congrArg src (lift_axis0 h c k)

/-- A float maximum along axis 1 of `[a, b]`, at the ideal values: at `r` it is the fold of `max`, from the accumulator's
    value, over the row's `b` entries. -/
theorem rowMax_apply {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ)
    (r : Fin a) : multiReduction .maximumf [1] ⟨1, ![a]⟩ src acc h hφ hacc (ix1 r)
      = (Finset.univ : Finset (Fin b)).fold max (Ideal.ofBits φ acc) fun k => src (ix2 r k) := by
  refine (Ideal.multiReduction_maximumf_single src acc h hφ hacc (ix1 r)).trans ?_
  have hf : (src ∘ h.lift (ix1 r)) = fun k : Fin b => src (ix2 r k) := funext fun k => congrArg src (lift_axis1 h r k)
  exact congrArg (fun f => Finset.fold max (Ideal.ofBits φ acc) f (Finset.univ : Finset (Fin b))) hf

end Cert.LibColumns

end
-- ==== Proof.TileValues.lean ====
/-
  One grid point's arithmetic, read at an index over the extended reals.

  The body multiplies a 512-row block of the normalized query rows with a 512-row block of the normalized key rows
  (contracting the 1024 features of both), compares the labels of the two blocks, and reduces the 512 x 512 tile
  along its columns three ways: the positive pairs' contributions summed, the negative pairs' contributions summed,
  and the positive pairs' 0/1 flags maximized. Each lemma reads one of these at row p of the tile, in the
  vocabulary of the loss: entry (p, q) of the tile has similarity "the sum over k of x0 (p, k) * x1 (q, k)" and
  agreement bit "label p of the column block equals label q of the row block".
-/
import proofs.«157751_j10222022165007_1_alg».proof.Proof.Gen.KernelIdeal.Skeleton
import proofs.«157751_j10222022165007_1_alg».proof.Proof.Loss
import proofs.«157751_j10222022165007_1_alg».proof.Proof.LibColumns
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Tile

open Idealize.ShloMosaic Idealize.ShloMosaic.ValueIdx Cert.KernelIdeal Cert.KernelIdeal.Gen Cert.Loss Cert.LibColumns

/-- A row [1, b] broadcast to [a, b] reads, at (r, c), the row's entry of column c. -/
theorem broadcastTo_1b_ab_apply {α : Type} {a b : ℕ} (v : (⟨2, ![1, b]⟩ : Shape).Idx → α)
    (h : (⟨2, ![1, b]⟩ : Shape).Broadcasts ⟨2, ![a, b]⟩) (r : Fin a) (c : Fin b) :
    broadcastTo ⟨2, ![a, b]⟩ v h (ix2 r c) = v (ix2 (0 : Fin 1) c) := by
  refine broadcastTo_apply v h (ix2 r c) (ix2 (0 : Fin 1) c) fun ax => ?_
  match ax with
  | ⟨0, _⟩ => rfl
  | ⟨1, _⟩ =>
    show c.val = if b = 1 then 0 else c.val
    split
    · have := c.isLt; omega
    · rfl

/-! ## The tile's similarity and agreement -/

/-- Similarity of row p of the column block with row q of the row block. -/
def sim (x0 x1 : Vec Ideal S512x1024 .bf16) (p q : Fin 512) : EReal := ∑ k : Fin 1024, x0 (ix2 p k) * x1 (ix2 q k)
/-- The labels of row p of the column block and of column q of the row block agree. -/
def same (x2 : Vec Ideal S512x1 .i32) (x3 : Vec Ideal S1x512 .i32) (p q : Fin 512) : BitVec 1 :=
  IntOp.cmpi .eq (x2 (ix2 p (0 : Fin 1))) (x3 (ix2 (0 : Fin 1) q))

theorem lhs_0 (i : S512x512.Idx) (q : dot_S512x1024_S512x1024_S512x512_1_1_0_0_n_n.contr.Idx) :
    (dot_S512x1024_S512x1024_S512x512_1_1_0_0_n_n.lhsIdx i q 0).val = (i 0).val := by
  unfold DotDims.lhsIdx
  rw [dif_neg (show ¬(0 : Fin S512x1024.rank) ∈ dot_S512x1024_S512x1024_S512x512_1_1_0_0_n_n.lhsBatch by decide), dif_pos (show (0 : Fin S512x1024.rank) ∈ dot_S512x1024_S512x1024_S512x512_1_1_0_0_n_n.lhsNonContracting by decide)]
  rfl
theorem lhs_1 (i : S512x512.Idx) (q : dot_S512x1024_S512x1024_S512x512_1_1_0_0_n_n.contr.Idx) :
    (dot_S512x1024_S512x1024_S512x512_1_1_0_0_n_n.lhsIdx i q 1).val = (q ⟨0, by decide⟩).val :=
  dot_S512x1024_S512x1024_S512x512_1_1_0_0_n_n.lhsIdx_val_of_single rfl i q
theorem rhs_0 (i : S512x512.Idx) (q : dot_S512x1024_S512x1024_S512x512_1_1_0_0_n_n.contr.Idx) :
    (dot_S512x1024_S512x1024_S512x512_1_1_0_0_n_n.rhsIdx i q 0).val = (i 1).val := by
  unfold DotDims.rhsIdx
  rw [dif_neg (show ¬(0 : Fin S512x1024.rank) ∈ dot_S512x1024_S512x1024_S512x512_1_1_0_0_n_n.rhsBatch by decide), dif_pos (show (0 : Fin S512x1024.rank) ∈ dot_S512x1024_S512x1024_S512x512_1_1_0_0_n_n.rhsNonContracting by decide)]
  rfl
theorem rhs_1 (i : S512x512.Idx) (q : dot_S512x1024_S512x1024_S512x512_1_1_0_0_n_n.contr.Idx) :
    (dot_S512x1024_S512x1024_S512x512_1_1_0_0_n_n.rhsIdx i q 1).val = (q ⟨0, by decide⟩).val :=
  dot_S512x1024_S512x1024_S512x512_1_1_0_0_n_n.rhsIdx_val_of_single rfl i q

/-- The matrix product into the zero accumulator: entry (p, q) is the tile's similarity. -/
theorem pay8_apply (x0 x1 : Vec Ideal S512x1024 .bf16) (p q : Fin 512) :
    k0_pay8 (F := Ideal) x0 x1 (ix2 p q) = sim x0 x1 p q := by
  unfold k0_pay8 sim
  try dsimp only
  rw [shapeCast_self, shapeCast_self]
  simp only [matmul]
  rw [Ideal.matmul_constant_zero_apply, ← Equiv.sum_comp (contrEquiv1 dot_S512x1024_S512x1024_S512x512_1_1_0_0_n_n 1024 rfl rfl).symm]
  refine Finset.sum_congr rfl fun k _ => ?_
  have hk := contrEquiv1_symm_val dot_S512x1024_S512x1024_S512x512_1_1_0_0_n_n 1024 rfl rfl k
  have el : dot_S512x1024_S512x1024_S512x512_1_1_0_0_n_n.lhsIdx (ix2 p q) ((contrEquiv1 dot_S512x1024_S512x1024_S512x512_1_1_0_0_n_n 1024 rfl rfl).symm k) = ix2 p k := funext fun a => Fin.ext (by
    match a with
    | ⟨0, _⟩ => exact lhs_0 _ _
    | ⟨1, _⟩ => exact (lhs_1 _ _).trans hk)
  have er : dot_S512x1024_S512x1024_S512x512_1_1_0_0_n_n.rhsIdx (ix2 p q) ((contrEquiv1 dot_S512x1024_S512x1024_S512x512_1_1_0_0_n_n 1024 rfl rfl).symm k) = ix2 q k := funext fun a => Fin.ext (by
    match a with
    | ⟨0, _⟩ => exact rhs_0 _ _
    | ⟨1, _⟩ => exact (rhs_1 _ _).trans hk)
  rw [el, er]

/-- The label comparison: entry (p, q) is the agreement bit. -/
theorem pay9_apply (x2 : Vec Ideal S512x1 .i32) (x3 : Vec Ideal S1x512 .i32) (p q : Fin 512) :
    k0_pay9 (F := Ideal) x2 x3 (ix2 p q) = same x2 x3 p q := by
  unfold k0_pay9 same
  try dsimp only
  rw [shapeCast_self, shapeCast_self]
  show IntOp.cmpi .eq (broadcastTo S512x512 x2 _ (ix2 p q)) (broadcastTo S512x512 x3 _ (ix2 p q)) = _
  rw [broadcastTo_a1_ab_apply, broadcastTo_1b_ab_apply]

/-- The positive-pair mask: entry (p, q) is the pair's positive bit. -/
theorem pay10_apply (x0 x1 : Vec Ideal S512x1024 .bf16) (x2 : Vec Ideal S512x1 .i32) (x3 : Vec Ideal S1x512 .i32) (p q : Fin 512) :
    k0_pay10 (F := Ideal) x0 x1 x2 x3 (ix2 p q) = posBit (same x2 x3 p q) (sim x0 x1 p q) := by
  unfold k0_pay10
  try dsimp only
  show IntOp.andi (k0_pay9 (F := Ideal) x2 x3 (ix2 p q)) (Ideal.cmp .olt (k0_pay8 (F := Ideal) x0 x1 (ix2 p q)) capW) = _
  rw [pay9_apply, pay8_apply]
  rfl

/-- The positive contributions of tile row p, summed over the tile's 512 columns. -/
theorem pay11_apply (x0 x1 : Vec Ideal S512x1024 .bf16) (x2 : Vec Ideal S512x1 .i32) (x3 : Vec Ideal S1x512 .i32) (p : Fin 512) (u : Fin 1) :
    k0_pay11 (F := Ideal) x0 x1 x2 x3 (ix2 p u) = ∑ q : Fin 512, posTerm (same x2 x3 p q) (sim x0 x1 p q) := by
  unfold k0_pay11
  try dsimp only
  rw [shapeCast_a_a1_apply]
  refine (rowSum_apply _ 0x00000000#32 reduces_S512x512_S512 (.inl rfl) rfl p).trans ?_
  refine Finset.sum_congr rfl fun q _ => ?_
  show Scalar.select (k0_pay10 (F := Ideal) x0 x1 x2 x3 (ix2 p q)) (oneW - k0_pay8 (F := Ideal) x0 x1 (ix2 p q)) zeroW = _
  rw [pay10_apply, pay8_apply]
  rfl

/-- The negative contributions of tile row p, summed over the tile's 512 columns. -/
theorem pay12_apply (x0 x1 : Vec Ideal S512x1024 .bf16) (x2 : Vec Ideal S512x1 .i32) (x3 : Vec Ideal S1x512 .i32) (p : Fin 512) (u : Fin 1) :
    k0_pay12 (F := Ideal) x0 x1 x2 x3 (ix2 p u) = ∑ q : Fin 512, negTerm (same x2 x3 p q) (sim x0 x1 p q) := by
  unfold k0_pay12
  try dsimp only
  rw [shapeCast_a_a1_apply]
  refine (rowSum_apply _ 0x00000000#32 reduces_S512x512_S512 (.inl rfl) rfl p).trans ?_
  refine Finset.sum_congr rfl fun q _ => ?_
  show Scalar.select (IntOp.andi (IntOp.xori (k0_pay9 (F := Ideal) x2 x3 (ix2 p q)) 1#1) (Ideal.cmp .ogt (k0_pay8 (F := Ideal) x0 x1 (ix2 p q)) halfW))
    (k0_pay8 (F := Ideal) x0 x1 (ix2 p q)) zeroW = _
  rw [pay9_apply, pay8_apply]
  rfl

/-- A maximum along the columns of a 512 x 512 tile from minus infinity, at tile row p: the fold of max over the row. -/
theorem rowMax_f32 (src : FVec Ideal S512x512 .f32) (h : S512x512.Reduces [1] S512) (hφ : FKind.Formats .f32)
    (hacc : (0xFF800000#32 : BitVec 32) = 0xFF800000#32) (p : Fin 512) :
    multiReduction .maximumf [1] S512 src 0xFF800000#32 h hφ hacc (ix1 p)
      = (Finset.univ : Finset (Fin 512)).fold max negInfW fun q => src (ix2 p q) :=
  rowMax_apply src 0xFF800000#32 h hφ hacc p

/-- The positive pairs' flags of tile row p, maximized over the tile's 512 columns from minus infinity. -/
theorem pay13_apply (x0 x1 : Vec Ideal S512x1024 .bf16) (x2 : Vec Ideal S512x1 .i32) (x3 : Vec Ideal S1x512 .i32) (p : Fin 512) (u : Fin 1) :
    k0_pay13 (F := Ideal) x0 x1 x2 x3 (ix2 p u)
      = (Finset.univ : Finset (Fin 512)).fold max negInfW fun q => flagOf (posBit (same x2 x3 p q) (sim x0 x1 p q)) := by
  unfold k0_pay13
  try dsimp only
  rw [shapeCast_a_a1_apply]
  refine (rowMax_f32 _ _ _ _ p).trans ?_
  refine congrArg (fun f => Finset.fold max negInfW f (Finset.univ : Finset (Fin 512))) (funext fun q => ?_)
  show flagOf (k0_pay10 (F := Ideal) x0 x1 x2 x3 (ix2 p q)) = _
  rw [pay10_apply]

/-! ## The accumulators' updates and the row's loss -/

theorem pay1_apply (v27 v36 : Vec Ideal S512x1 .f32) (i : S512x1.Idx) : k0_pay1 (F := Ideal) v27 v36 i = v36 i + v27 i := by
  unfold k0_pay1; (try dsimp only); rw [shapeCast_self]; rfl
theorem pay2_apply (v31 v41 : Vec Ideal S512x1 .f32) (i : S512x1.Idx) : k0_pay2 (F := Ideal) v31 v41 i = v41 i + v31 i := by
  unfold k0_pay2; (try dsimp only); rw [shapeCast_self]; rfl
theorem pay3_apply (v35 v46 : Vec Ideal S512x1 .f32) (i : S512x1.Idx) : k0_pay3 (F := Ideal) v35 v46 i = max (v46 i) (v35 i) := by
  unfold k0_pay3; (try dsimp only); rw [shapeCast_self]; rfl
theorem pay4_apply (v54 v57 v58 : Vec Ideal S512x1 .f32) (i : S512x1.Idx) :
    k0_pay4 (F := Ideal) v54 v57 v58 i = Scalar.select (Ideal.cmp .ogt (v54 i) halfW) (v57 i + v58 i) zeroW := by
  unfold k0_pay4; rfl
theorem pay5_apply (i : S512x1.Idx) : k0_pay5 (F := Ideal) i = zeroW := by
  unfold k0_pay5; (try dsimp only); rw [shapeCast_self]; rfl
theorem pay6_apply (i : S512x1.Idx) : k0_pay6 (F := Ideal) i = zeroW := by
  unfold k0_pay6; (try dsimp only); rw [shapeCast_self]; rfl
theorem pay7_apply (i : S512x1.Idx) : k0_pay7 (F := Ideal) i = zeroW := by
  unfold k0_pay7; (try dsimp only); rw [shapeCast_self]; rfl

end Cert.KernelIdeal.Tile

end
-- ==== Proof.BlockReads.lean ====
/-
  Each input window's block at a grid point, read at an index, as an entry of the array the region finds.

  The grid is 16 row tiles by 16 column tiles, walked row tile by row tile: point t sits at row tile t / 16 and column
  tile t % 16. The normalized query rows and their labels are read through windows that follow the row tile; the
  normalized key rows and their labels through windows that follow the column tile; the result through a window that
  follows the row tile. A block's entry (p, k) is the array's entry at row (512 * tile + p).
-/
import proofs.«157751_j10222022165007_1_alg».proof.Proof.Gen.KernelIdeal.Frame
import proofs.«157751_j10222022165007_1_alg».proof.Proof.Loss
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.Loss

variable {F : FTy → Type} [FloatOps F]
variable (m : (ℓ : Loc nD τ sig) → Buf (Elt F) ℓ)

/-- The row tile of point t. -/
def rowTile (t : Fin cfg0.N) : Fin 16 := ⟨t.val / 16, by have := t.isLt; have hN : cfg0.N = 256 := N_0; omega⟩
/-- The column tile of point t. -/
def colTile (t : Fin cfg0.N) : Fin 16 := ⟨t.val % 16, Nat.mod_lt _ (by decide)⟩

/-- Where each window's block sits at point t, decided over the grid. -/
theorem at0 : ∀ t : Fin cfg0.N, win0_0.index t 0 = t.val / 16 ∧ win0_0.index t 1 = 0 :=
  (by decide +kernel : ∀ t : Fin grid0.N, win0_0.index t 0 = t.val / 16 ∧ win0_0.index t 1 = 0)
theorem at1 : ∀ t : Fin cfg0.N, win0_1.index t 0 = t.val % 16 ∧ win0_1.index t 1 = 0 :=
  (by decide +kernel : ∀ t : Fin grid0.N, win0_1.index t 0 = t.val % 16 ∧ win0_1.index t 1 = 0)
theorem at2 : ∀ t : Fin cfg0.N, win0_2.index t 0 = t.val / 16 ∧ win0_2.index t 1 = 0 :=
  (by decide +kernel : ∀ t : Fin grid0.N, win0_2.index t 0 = t.val / 16 ∧ win0_2.index t 1 = 0)
theorem at3 : ∀ t : Fin cfg0.N, win0_3.index t 0 = 0 ∧ win0_3.index t 1 = t.val % 16 :=
  (by decide +kernel : ∀ t : Fin grid0.N, win0_3.index t 0 = 0 ∧ win0_3.index t 1 = t.val % 16)
theorem at4 : ∀ t : Fin cfg0.N, win0_4.index t 0 = t.val / 16 ∧ win0_4.index t 1 = 0 :=
  (by decide +kernel : ∀ t : Fin grid0.N, win0_4.index t 0 = t.val / 16 ∧ win0_4.index t 1 = 0)

/-- The arrays the region finds, each at its literal type. -/
abbrev queries (c : Dev nD) : Vec F S8192x1024 .bf16 := V m c main_v8
abbrev keys (c : Dev nD) : Vec F S8192x1024 .bf16 := V m c main_v17
abbrev queryLabels (c : Dev nD) : Vec F S8192x1 .i32 := V m c main_v18
abbrev keyLabels (c : Dev nD) : Vec F S1x8192 .i32 := V m c main_v19

/-- The blocks at point t, each at its literal type. -/
abbrev qBlock (c : Dev nD) (t : Fin cfg0.N) : Vec F S512x1024 .bf16 := iblk m c 0 t
abbrev kBlock (c : Dev nD) (t : Fin cfg0.N) : Vec F S512x1024 .bf16 := iblk m c 1 t
abbrev qLabelBlock (c : Dev nD) (t : Fin cfg0.N) : Vec F S512x1 .i32 := iblk m c 2 t
abbrev kLabelBlock (c : Dev nD) (t : Fin cfg0.N) : Vec F S1x512 .i32 := iblk m c 3 t

theorem qBlock_apply (c : Dev nD) (t : Fin cfg0.N) (p : Fin 512) (k : Fin 1024) :
    qBlock m c t (ix2 p k) = queries m c (ix2 (tileIx (rowTile t) p) k) := by
  unfold qBlock iblk
  rw [View.read_apply]
  show V m c main_v8 _ = V m c main_v8 _
  congr 1
  funext a
  apply Fin.ext
  match a with
  | ⟨0, _⟩ => show win0_0.index t 0 * 512 + 1 * p.val = 512 * (t.val / 16) + p.val; rw [(at0 t).1]; omega
  | ⟨1, _⟩ => show win0_0.index t 1 * 1024 + 1 * k.val = k.val; rw [(at0 t).2]; omega

theorem kBlock_apply (c : Dev nD) (t : Fin cfg0.N) (q : Fin 512) (k : Fin 1024) :
    kBlock m c t (ix2 q k) = keys m c (ix2 (tileIx (colTile t) q) k) := by
  unfold kBlock iblk
  rw [View.read_apply]
  show V m c main_v17 _ = V m c main_v17 _
  congr 1
  funext a
  apply Fin.ext
  match a with
  | ⟨0, _⟩ => show win0_1.index t 0 * 512 + 1 * q.val = 512 * (t.val % 16) + q.val; rw [(at1 t).1]; omega
  | ⟨1, _⟩ => show win0_1.index t 1 * 1024 + 1 * k.val = k.val; rw [(at1 t).2]; omega

theorem qLabelBlock_apply (c : Dev nD) (t : Fin cfg0.N) (p : Fin 512) (u : Fin 1) :
    qLabelBlock m c t (ix2 p u) = queryLabels m c (ix2 (tileIx (rowTile t) p) u) := by
  unfold qLabelBlock iblk
  rw [View.read_apply]
  show V m c main_v18 _ = V m c main_v18 _
  congr 1
  funext a
  apply Fin.ext
  match a with
  | ⟨0, _⟩ => show win0_2.index t 0 * 512 + 1 * p.val = 512 * (t.val / 16) + p.val; rw [(at2 t).1]; omega
  | ⟨1, _⟩ => show win0_2.index t 1 * 1 + 1 * u.val = u.val; rw [(at2 t).2]; omega

theorem kLabelBlock_apply (c : Dev nD) (t : Fin cfg0.N) (u : Fin 1) (q : Fin 512) :
    kLabelBlock m c t (ix2 u q) = keyLabels m c (ix2 u (tileIx (colTile t) q)) := by
  unfold kLabelBlock iblk
  rw [View.read_apply]
  show V m c main_v19 _ = V m c main_v19 _
  congr 1
  funext a
  apply Fin.ext
  match a with
  | ⟨0, _⟩ => show win0_3.index t 0 * 1 + 1 * u.val = u.val; rw [(at3 t).1]; omega
  | ⟨1, _⟩ => show win0_3.index t 1 * 512 + 1 * q.val = 512 * (t.val % 16) + q.val; rw [(at3 t).2]; omega

end Cert.KernelIdeal.Blocks

end
-- ==== Proof.RowBlocks.lean ====
/-
  The three accumulators across a row tile's sixteen column tiles, and the row block's loss they produce.

  Walking a row tile's column tiles in order, the body clears the accumulators at the first tile and folds one tile's
  reduction into them at every tile. After the last tile the positive accumulator at tile row p holds the zero word plus
  the sum, over the 16 tiles and the 512 columns of each, of the positive contributions of row (512 * row tile + p) —
  the row's whole positive sum, since sums of extended reals may be regrouped; likewise the negative accumulator; and
  the flag accumulator exceeds one half exactly when some column of some tile is a positive pair of that row. The block
  the last tile stores is therefore the row's loss.
-/
import proofs.«157751_j10222022165007_1_alg».proof.Proof.BodyCases
import proofs.«157751_j10222022165007_1_alg».proof.Proof.TileValues
import proofs.«157751_j10222022165007_1_alg».proof.Proof.BlockReads

noncomputable section

open Idealize.ShloMosaic Idealize.ShloMosaic.TcCoe Idealize.SL.Sem Idealize.ShloMosaic.ValueIdx
open Idealize.ShloMosaic.Pipeline (Dat)

namespace Cert.KernelIdeal.Rows

open Cert.KernelIdeal Cert.KernelIdeal.Gen Cert.KernelIdeal.Cases Cert.KernelIdeal.Blocks Cert.Loss

variable (m : (ℓ : Loc nD τ sig) → Buf (Elt Ideal) ℓ)

/-! ## One point's reductions, and what the points before and at t leave -/

abbrev posTile (c : Dev nD) (t : Fin cfg0.N) : Vec Ideal S512x1 .f32 :=
  k0_pay11 (F := Ideal) (qBlock m c t) (kBlock m c t) (qLabelBlock m c t) (kLabelBlock m c t)
abbrev negTile (c : Dev nD) (t : Fin cfg0.N) : Vec Ideal S512x1 .f32 :=
  k0_pay12 (F := Ideal) (qBlock m c t) (kBlock m c t) (qLabelBlock m c t) (kLabelBlock m c t)
abbrev anyTile (c : Dev nD) (t : Fin cfg0.N) : Vec Ideal S512x1 .f32 :=
  k0_pay13 (F := Ideal) (qBlock m c t) (kBlock m c t) (qLabelBlock m c t) (kLabelBlock m c t)

/-- What the point before t left (the stored block, then the three accumulators). -/
abbrev before (c : Dev nD) (t : Fin cfg0.N) := outsAt0 m c (t.val - 1) (Nat.lt_of_le_of_lt (Nat.sub_le _ _) t.isLt)

/-- At a row tile's first column tile the accumulators are the tile's reductions folded into the zero block. -/
theorem after_first (c : Dev nD) (t : Fin cfg0.N) (h0 : t.val % 16 = 0) :
    (outsAt0 m c t.val t.isLt).2
      = (k0_pay1 (F := Ideal) (posTile m c t) (k0_pay5 (F := Ideal)), k0_pay2 (F := Ideal) (negTile m c t) (k0_pay6 (F := Ideal)),
          k0_pay3 (F := Ideal) (anyTile m c t) (k0_pay7 (F := Ideal))) := by
  have h1 : ¬t.val % 16 = 15 := by omega
  rw [outsAt0_A m c t h0 h1]
  dsimp only
  exact congrArg₂ Prod.mk (left_A_0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t)) (congrArg₂ Prod.mk (left_A_1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t)) (left_A_2 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t)))

/-- At every later column tile they are the tile's reductions folded into what the tile before left. -/
theorem after_later (c : Dev nD) (t : Fin cfg0.N) (h0 : ¬t.val % 16 = 0) :
    (outsAt0 m c t.val t.isLt).2
      = (k0_pay1 (F := Ideal) (posTile m c t) (before m c t).2.1, k0_pay2 (F := Ideal) (negTile m c t) (before m c t).2.2.1,
          k0_pay3 (F := Ideal) (anyTile m c t) (before m c t).2.2.2) := by
  by_cases h1 : t.val % 16 = 15
  · rw [outsAt0_C m c t h0 h1]
    dsimp only
    exact congrArg₂ Prod.mk (left_C_0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (before m c t).2.1 (before m c t).2.2.1 (before m c t).2.2.2) (congrArg₂ Prod.mk (left_C_1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (before m c t).2.1 (before m c t).2.2.1 (before m c t).2.2.2) (left_C_2 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (before m c t).2.1 (before m c t).2.2.1 (before m c t).2.2.2))
  · rw [outsAt0_B m c t h0 h1]
    dsimp only
    exact congrArg₂ Prod.mk (left_B_0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (before m c t).2.1 (before m c t).2.2.1 (before m c t).2.2.2) (congrArg₂ Prod.mk (left_B_1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (before m c t).2.1 (before m c t).2.2.1 (before m c t).2.2.2) (left_B_2 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (before m c t).2.1 (before m c t).2.2.1 (before m c t).2.2.2))

/-- At the last column tile the stored block is the select over the three accumulators as that tile leaves them. -/
theorem stored_last (c : Dev nD) (t : Fin cfg0.N) (h0 : ¬t.val % 16 = 0) (h1 : t.val % 16 = 15) :
    (outsAt0 m c t.val t.isLt).1
      = k0_pay4 (F := Ideal) (outsAt0 m c t.val t.isLt).2.2.2 (outsAt0 m c t.val t.isLt).2.1 (outsAt0 m c t.val t.isLt).2.2.1 := by
  rw [outsAt0_C m c t h0 h1]
  dsimp only
  refine (stored_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (before m c t).2.1 (before m c t).2.2.1 (before m c t).2.2.2).trans ?_
  rw [(left_C_0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (before m c t).2.1 (before m c t).2.2.1 (before m c t).2.2.2), (left_C_1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (before m c t).2.1 (before m c t).2.2.1 (before m c t).2.2.2), (left_C_2 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (before m c t).2.1 (before m c t).2.2.1 (before m c t).2.2.2)]

/-! ## The accumulators as folds from the row tile's first column tile -/

abbrev posSeq (c : Dev nD) : (n : ℕ) → n < cfg0.N → Vec Ideal S512x1 .f32 := fun n h => (outsAt0 m c n h).2.1
abbrev posReset (c : Dev nD) : (n : ℕ) → n < cfg0.N → Vec Ideal S512x1 .f32 := fun n h => k0_pay1 (F := Ideal) (posTile m c ⟨n, h⟩) (k0_pay5 (F := Ideal))
abbrev posStep (c : Dev nD) : (n : ℕ) → n < cfg0.N → Vec Ideal S512x1 .f32 → Vec Ideal S512x1 .f32 :=
  fun n h acc => k0_pay1 (F := Ideal) (posTile m c ⟨n, h⟩) acc

/-- The accumulator after point t is the fold, from the first column tile of t's row tile, of the tiles' reductions. -/
theorem posSeq_eq (c : Dev nD) (t : Fin cfg0.N) (h' : 16 * (t.val / 16) + t.val % 16 < cfg0.N) :
    posSeq m c t.val t.isLt = Pipeline.accAt (posReset m c) (posStep m c) (16 * (t.val / 16)) (t.val % 16) h' :=
  Pipeline.eq_accAt_of_mod (posSeq m c) 16 (posReset m c) (posStep m c)
    (fun n h hn => congrArg (fun x => x.1) (after_first m c ⟨n, h⟩ hn))
    (fun n h hn => congrArg (fun x => x.1) (after_later m c ⟨n + 1, h⟩ hn))
    (by norm_num) t.val t.isLt h'

abbrev negSeq (c : Dev nD) : (n : ℕ) → n < cfg0.N → Vec Ideal S512x1 .f32 := fun n h => (outsAt0 m c n h).2.2.1
abbrev negReset (c : Dev nD) : (n : ℕ) → n < cfg0.N → Vec Ideal S512x1 .f32 := fun n h => k0_pay2 (F := Ideal) (negTile m c ⟨n, h⟩) (k0_pay6 (F := Ideal))
abbrev negStep (c : Dev nD) : (n : ℕ) → n < cfg0.N → Vec Ideal S512x1 .f32 → Vec Ideal S512x1 .f32 :=
  fun n h acc => k0_pay2 (F := Ideal) (negTile m c ⟨n, h⟩) acc

/-- The accumulator after point t is the fold, from the first column tile of t's row tile, of the tiles' reductions. -/
theorem negSeq_eq (c : Dev nD) (t : Fin cfg0.N) (h' : 16 * (t.val / 16) + t.val % 16 < cfg0.N) :
    negSeq m c t.val t.isLt = Pipeline.accAt (negReset m c) (negStep m c) (16 * (t.val / 16)) (t.val % 16) h' :=
  Pipeline.eq_accAt_of_mod (negSeq m c) 16 (negReset m c) (negStep m c)
    (fun n h hn => congrArg (fun x => x.2.1) (after_first m c ⟨n, h⟩ hn))
    (fun n h hn => congrArg (fun x => x.2.1) (after_later m c ⟨n + 1, h⟩ hn))
    (by norm_num) t.val t.isLt h'

abbrev anySeq (c : Dev nD) : (n : ℕ) → n < cfg0.N → Vec Ideal S512x1 .f32 := fun n h => (outsAt0 m c n h).2.2.2
abbrev anyReset (c : Dev nD) : (n : ℕ) → n < cfg0.N → Vec Ideal S512x1 .f32 := fun n h => k0_pay3 (F := Ideal) (anyTile m c ⟨n, h⟩) (k0_pay7 (F := Ideal))
abbrev anyStep (c : Dev nD) : (n : ℕ) → n < cfg0.N → Vec Ideal S512x1 .f32 → Vec Ideal S512x1 .f32 :=
  fun n h acc => k0_pay3 (F := Ideal) (anyTile m c ⟨n, h⟩) acc

/-- The accumulator after point t is the fold, from the first column tile of t's row tile, of the tiles' reductions. -/
theorem anySeq_eq (c : Dev nD) (t : Fin cfg0.N) (h' : 16 * (t.val / 16) + t.val % 16 < cfg0.N) :
    anySeq m c t.val t.isLt = Pipeline.accAt (anyReset m c) (anyStep m c) (16 * (t.val / 16)) (t.val % 16) h' :=
  Pipeline.eq_accAt_of_mod (anySeq m c) 16 (anyReset m c) (anyStep m c)
    (fun n h hn => congrArg (fun x => x.2.2) (after_first m c ⟨n, h⟩ hn))
    (fun n h hn => congrArg (fun x => x.2.2) (after_later m c ⟨n + 1, h⟩ hn))
    (by norm_num) t.val t.isLt h'

/-- Point n's addend to each accumulator (outside the grid, any value: it is never read). -/
def posAdd (c : Dev nD) (n : ℕ) : S512x1.Idx → EReal := fun i => if h : n < cfg0.N then posTile m c ⟨n, h⟩ i else 0
def negAdd (c : Dev nD) (n : ℕ) : S512x1.Idx → EReal := fun i => if h : n < cfg0.N then negTile m c ⟨n, h⟩ i else 0
def anyAdd (c : Dev nD) (n : ℕ) : S512x1.Idx → EReal := fun i => if h : n < cfg0.N then anyTile m c ⟨n, h⟩ i else negInfW

theorem run_lt (t : Fin cfg0.N) : 16 * (t.val / 16) + t.val % 16 < cfg0.N := by rw [Nat.div_add_mod]; exact t.isLt

/-- The positive accumulator after point t: the zero word plus the addends of the row tile's points up to t. -/
theorem posSeq_sum (c : Dev nD) (t : Fin cfg0.N) (i : S512x1.Idx) :
    (outsAt0 m c t.val t.isLt).2.1 i
      = zeroW + ∑ s ∈ Finset.range (t.val % 16 + 1), posAdd m c (16 * (t.val / 16) + s) i := by
  refine (congrFun (posSeq_eq m c t (run_lt t)) i).trans ?_
  exact Pipeline.accAt_add_apply (posReset m c) (posStep m c) (fun _ => zeroW) (posAdd m c) (16 * (t.val / 16)) (t.val % 16)
    (fun h i => by simp only [posAdd, dif_pos h]; exact (Tile.pay1_apply _ _ i).trans (by rw [Tile.pay5_apply]))
    (fun n h acc i _ _ => by simp only [posAdd, dif_pos h]; exact Tile.pay1_apply _ _ i)
    (t.val % 16) le_rfl (run_lt t) i

theorem negSeq_sum (c : Dev nD) (t : Fin cfg0.N) (i : S512x1.Idx) :
    (outsAt0 m c t.val t.isLt).2.2.1 i
      = zeroW + ∑ s ∈ Finset.range (t.val % 16 + 1), negAdd m c (16 * (t.val / 16) + s) i := by
  refine (congrFun (negSeq_eq m c t (run_lt t)) i).trans ?_
  exact Pipeline.accAt_add_apply (negReset m c) (negStep m c) (fun _ => zeroW) (negAdd m c) (16 * (t.val / 16)) (t.val % 16)
    (fun h i => by simp only [negAdd, dif_pos h]; exact (Tile.pay2_apply _ _ i).trans (by rw [Tile.pay6_apply]))
    (fun n h acc i _ _ => by simp only [negAdd, dif_pos h]; exact Tile.pay2_apply _ _ i)
    (t.val % 16) le_rfl (run_lt t) i

/-- The flag accumulator after point t exceeds one half exactly when some point of the row tile up to t has a tile
    maximum that does. -/
theorem anySeq_lt (c : Dev nD) (t : Fin cfg0.N) (i : S512x1.Idx) :
    halfW < (outsAt0 m c t.val t.isLt).2.2.2 i
      ↔ ∃ s, s ≤ t.val % 16 ∧ halfW < anyAdd m c (16 * (t.val / 16) + s) i := by
  rw [show (outsAt0 m c t.val t.isLt).2.2.2 i = _ from congrFun (anySeq_eq m c t (run_lt t)) i]
  exact accAt_max_lt (anyReset m c) (anyStep m c) halfW zeroW not_half_lt_zeroW (anyAdd m c) (16 * (t.val / 16)) (t.val % 16)
    (fun h i => by simp only [anyAdd, dif_pos h]; exact (Tile.pay3_apply _ _ i).trans (by rw [Tile.pay7_apply]))
    (fun n h acc i _ _ => by simp only [anyAdd, dif_pos h]; exact Tile.pay3_apply _ _ i)
    (t.val % 16) le_rfl (run_lt t) i

/-! ## From tiles to rows -/

/-- Similarity and label agreement of query row r and key row j, over the arrays the region finds. -/
def simK (c : Dev nD) (r j : Fin 8192) : EReal := ∑ k : Fin 1024, queries m c (ix2 r k) * keys m c (ix2 j k)
def sameK (c : Dev nD) (r j : Fin 8192) : BitVec 1 :=
  IntOp.cmpi .eq (queryLabels m c (ix2 r (0 : Fin 1))) (keyLabels m c (ix2 (0 : Fin 1) j))

theorem tile_sim (c : Dev nD) (t : Fin cfg0.N) (p q : Fin 512) :
    Tile.sim (qBlock m c t) (kBlock m c t) p q = simK m c (tileIx (rowTile t) p) (tileIx (colTile t) q) := by
  unfold Tile.sim simK
  exact Finset.sum_congr rfl fun k _ => by rw [qBlock_apply, kBlock_apply]

theorem tile_same (c : Dev nD) (t : Fin cfg0.N) (p q : Fin 512) :
    Tile.same (qLabelBlock m c t) (kLabelBlock m c t) p q = sameK m c (tileIx (rowTile t) p) (tileIx (colTile t) q) := by
  unfold Tile.same sameK
  rw [qLabelBlock_apply, kLabelBlock_apply]

/-- Point (16 * row tile + s) of t's row tile sits at t's row tile and at column tile s. -/
theorem rowTile_run (t : Fin cfg0.N) (s : ℕ) (hs : s < 16) (h : 16 * (t.val / 16) + s < cfg0.N) :
    rowTile ⟨16 * (t.val / 16) + s, h⟩ = rowTile t :=
  Fin.ext (by show (16 * (t.val / 16) + s) / 16 = t.val / 16; omega)
theorem colTile_run (t : Fin cfg0.N) (s : ℕ) (hs : s < 16) (h : 16 * (t.val / 16) + s < cfg0.N) :
    colTile ⟨16 * (t.val / 16) + s, h⟩ = ⟨s, hs⟩ :=
  Fin.ext (by show (16 * (t.val / 16) + s) % 16 = s; omega)
theorem run_point_lt (t : Fin cfg0.N) (s : ℕ) (hs : s < 16) : 16 * (t.val / 16) + s < cfg0.N := by
  have hN : cfg0.N = 256 := N_0
  have := t.isLt
  omega

/-- After the last column tile the positive accumulator at tile row p is the zero word plus the row's positive sum. -/
theorem pos_row (c : Dev nD) (t : Fin cfg0.N) (h15 : t.val % 16 = 15) (p : Fin 512) (u : Fin 1) :
    (outsAt0 m c t.val t.isLt).2.1 (ix2 p u) = zeroW + rowPos (simK m c) (sameK m c) (tileIx (rowTile t) p) := by
  have h16 : t.val % 16 + 1 = 16 := by omega
  rw [posSeq_sum m c t (ix2 p u), h16]
  refine congrArg (zeroW + ·) ?_
  unfold rowPos
  rw [sum_tiles, Finset.sum_range]
  refine Finset.sum_congr rfl fun s _ => ?_
  have hlt := run_point_lt t s.val s.isLt
  simp only [posAdd, dif_pos hlt]
  refine (Tile.pay11_apply _ _ _ _ p u).trans (Finset.sum_congr rfl fun q _ => ?_)
  rw [tile_sim, tile_same, rowTile_run t s.val s.isLt hlt, colTile_run t s.val s.isLt hlt]

theorem neg_row (c : Dev nD) (t : Fin cfg0.N) (h15 : t.val % 16 = 15) (p : Fin 512) (u : Fin 1) :
    (outsAt0 m c t.val t.isLt).2.2.1 (ix2 p u) = zeroW + rowNeg (simK m c) (sameK m c) (tileIx (rowTile t) p) := by
  have h16 : t.val % 16 + 1 = 16 := by omega
  rw [negSeq_sum m c t (ix2 p u), h16]
  refine congrArg (zeroW + ·) ?_
  unfold rowNeg
  rw [sum_tiles, Finset.sum_range]
  refine Finset.sum_congr rfl fun s _ => ?_
  have hlt := run_point_lt t s.val s.isLt
  simp only [negAdd, dif_pos hlt]
  refine (Tile.pay12_apply _ _ _ _ p u).trans (Finset.sum_congr rfl fun q _ => ?_)
  rw [tile_sim, tile_same, rowTile_run t s.val s.isLt hlt, colTile_run t s.val s.isLt hlt]

/-- After the last column tile the flag accumulator at tile row p is above one half exactly when the row has a positive
    pair; as a bit, the comparison is the disjunction of the row's positive bits. -/
theorem any_row (c : Dev nD) (t : Fin cfg0.N) (h15 : t.val % 16 = 15) (p : Fin 512) (u : Fin 1) :
    Ideal.cmp .ogt ((outsAt0 m c t.val t.isLt).2.2.2 (ix2 p u)) halfW
      = rowAny (simK m c) (sameK m c) (tileIx (rowTile t) p) := by
  refine cmp_ogt_half_eq _ _ ?_
  rw [anySeq_lt m c t (ix2 p u), h15]
  unfold rowAny
  rw [fold_ori_eq_one]
  constructor
  · rintro ⟨s, hs, hlt⟩
    have hs16 : s < 16 := by omega
    have hb := run_point_lt t s hs16
    simp only [anyAdd, dif_pos hb] at hlt
    rw [show anyTile m c ⟨16 * (t.val / 16) + s, hb⟩ (ix2 p u) = _ from Tile.pay13_apply _ _ _ _ p u, half_lt_fold_flags] at hlt
    obtain ⟨q, hq⟩ := hlt
    rw [tile_sim, tile_same, rowTile_run t s hs16 hb, colTile_run t s hs16 hb] at hq
    exact ⟨tileIx ⟨s, hs16⟩ q, Finset.mem_univ _, hq⟩
  · rintro ⟨j, _, hj⟩
    have hjlt := j.isLt
    have hs16 : j.val / 512 < 16 := by omega
    have hb := run_point_lt t (j.val / 512) hs16
    refine ⟨j.val / 512, by omega, ?_⟩
    simp only [anyAdd, dif_pos hb]
    rw [show anyTile m c ⟨16 * (t.val / 16) + j.val / 512, hb⟩ (ix2 p u) = _ from Tile.pay13_apply _ _ _ _ p u, half_lt_fold_flags]
    refine ⟨⟨j.val % 512, Nat.mod_lt _ (by decide)⟩, ?_⟩
    rw [tile_sim, tile_same, rowTile_run t (j.val / 512) hs16 hb, colTile_run t (j.val / 512) hs16 hb]
    have hj' : tileIx ⟨j.val / 512, hs16⟩ ⟨j.val % 512, Nat.mod_lt _ (by decide)⟩ = j :=
      Fin.ext (by show 512 * (j.val / 512) + j.val % 512 = j.val; omega)
    rw [hj']
    exact hj

/-- The block the last column tile stores: at tile row p, the loss of row (512 * row tile + p). -/
theorem stored_row (c : Dev nD) (t : Fin cfg0.N) (h15 : t.val % 16 = 15) (p : Fin 512) (u : Fin 1) :
    (outsAt0 m c t.val t.isLt).1 (ix2 p u) = rowLoss (simK m c) (sameK m c) (tileIx (rowTile t) p) := by
  have h0 : ¬t.val % 16 = 0 := by omega
  rw [show (outsAt0 m c t.val t.isLt).1 = _ from stored_last m c t h0 h15, Tile.pay4_apply, pos_row m c t h15 p u,
    neg_row m c t h15 p u, any_row m c t h15 p u]
  rfl

end Cert.KernelIdeal.Rows

end
-- ==== Proof.RowLosses.lean ====
/-
  The region's result array and the loss the host computes from it.

  The result window follows the row tile and is written back once per row tile, after its last column tile; the block
  written back holds, at tile row p, the loss of row (512 * row tile + p). The sixteen blocks tile the [8192, 1] array,
  so the array ends holding each row's loss. The host then sums the array from the zero word and divides by the row
  count word: the loss of the similarity and agreement matrices the region found.
-/
import proofs.«157751_j10222022165007_1_alg».proof.Proof.RowBlocks
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Blocks Cert.KernelIdeal.Rows Cert.Loss

variable (m : (ℓ : Loc nD τ sig) → Buf (Elt Ideal) ℓ) (ρ : Dev nD → PrngReg)

/-- Every row's loss, as contents of the region's result array. -/
def rowLosses (c : Dev nD) : Buf (Elt Ideal) ((c : Thread nD τ).loc main_v20) :=
  fun i => rowLoss (simK m c) (sameK m c) (i 0)

/-- The block a row tile's last point stores, at any index of the block. -/
theorem stored_at (c : Dev nD) (t : Fin cfg0.N) (h15 : t.val % 16 = 15) (y : S512x1.Idx) :
    (outsAt0 m c t.val t.isLt).1 y = rowLoss (simK m c) (sameK m c) (tileIx (rowTile t) (y 0)) := by
  obtain ⟨p, u, rfl⟩ : ∃ (p : Fin 512) (u : Fin 1), y = ix2 p u := ⟨y 0, y 1, eq_ix2 y⟩
  exact stored_row m c t h15 p u

/-- What a row tile's last point writes back is its block of the rows' losses. -/
theorem flushed_eq (c : Dev nD) (t : Fin cfg0.N) (hf : (cfg0.win 4).flush t = true) :
    (dats m 0 c).flushed 4 t = ((cfg0.win 4).blk t).view.read (Elt Ideal) (rowLosses m c) := by
  have h15 : t.val % 16 = 15 := (flush0_4 t).mp hf
  show (cfg0.win 4).cut (grid0.coords t) ((dats m 0 c).after 4 t) = _
  rw [after0_4]
  funext y
  show (outsAt0 m c t.val t.isLt).1 y = rowLosses m c (((cfg0.win 4).blk t).view.emb y)
  refine (stored_at m c t h15 y).trans ?_
  unfold rowLosses
  refine congrArg (rowLoss (simK m c) (sameK m c)) (Fin.ext ?_)
  show 512 * (t.val / 16) + (y 0).val = win0_4.index t 0 * 512 + 1 * (y 0).val
  rw [(at4 t).1]
  omega

/-- An index of the array is in point t's block iff each coordinate is in the block's range on its axis. -/
theorem mem_blk (t : Fin cfg0.N) (i : S8192x1.Idx) :
    i ∈ ((cfg0.win 4).blk t).view.set
      ↔ ∀ a : Fin 2, win0_4.index t a * S512x1.size a ≤ (i a).val ∧ (i a).val < win0_4.index t a * S512x1.size a + S512x1.size a := by
  show i ∈ ((View.whole main_v20).slice (win0_4.rect t)).set ↔ _
  rw [View.set_slice_whole, Rect.mem_set_unit]
  exact Iff.rfl

/-- Row r lies in the block that the last point of row tile (r / 512) writes back. -/
theorem covered (i : S8192x1.Idx) :
    ∃ t : Fin cfg0.N, (cfg0.win 4).flush t = true ∧ i ∈ ((cfg0.win 4).blk t).view.set := by
  have hi0 : (i 0).val < 8192 := (i 0).isLt
  have hi1 : (i 1).val < 1 := (i 1).isLt
  have hN : cfg0.N = 256 := N_0
  refine ⟨⟨16 * ((i 0).val / 512) + 15, by omega⟩, (flush0_4 _).mpr (by show (16 * ((i 0).val / 512) + 15) % 16 = 15; omega), ?_⟩
  rw [mem_blk]
  intro a
  have e := at4 ⟨16 * ((i 0).val / 512) + 15, by omega⟩
  match a with
  | ⟨0, _⟩ =>
    show win0_4.index _ 0 * 512 ≤ (i 0).val ∧ (i 0).val < win0_4.index _ 0 * 512 + 512
    rw [e.1]
    show (16 * ((i 0).val / 512) + 15) / 16 * 512 ≤ (i 0).val ∧ (i 0).val < (16 * ((i 0).val / 512) + 15) / 16 * 512 + 512
    omega
  | ⟨1, _⟩ =>
    show win0_4.index _ 1 * 1 ≤ (i 1).val ∧ (i 1).val < win0_4.index _ 1 * 1 + 1
    rw [e.2]
    omega

/-- So the result array ends holding the rows' losses. -/
theorem final (c : Dev nD) : (dats m 0 c).arrAt 4 cfg0.N = rowLosses m c :=
  (dats m 0 c).arrAt_eq_of_cover 4 (rowLosses m c) (flushed_eq m c) covered

end Cert.KernelIdeal.Result

end
-- ==== Proof.LossOfArrays.lean ====
/-
  The similarity and label-agreement matrices as functions of the four argument arrays, and with them the loss as one
  function of the arguments.

  Each of the two embedding arrays is normalized row by row: entry (r, k) is divided by the square root of the row's
  sum of squares plus a small word. The similarity of query row r and key row j is the dot product of the two
  normalized rows over the 1024 features; the agreement bit compares the two label vectors at r and at j.
-/
import proofs.«157751_j10222022165007_1_alg».proof.Proof.Loss

noncomputable section

namespace Cert.Loss

open Idealize.ShloMosaic Idealize.ShloMosaic.ValueIdx

/-- The word added under the square root. -/
abbrev epsW : EReal := Ideal.ofBits .f32 0x2B8CBCCC#32

/-- Row r's sum of squares, started at the zero word. -/
def sumSq (X : (⟨2, ![8192, 1024]⟩ : Shape).Idx → EReal) (r : Fin 8192) : EReal :=
  zeroW + ∑ k : Fin 1024, X (ix2 r k) * X (ix2 r k)

/-- Entry (r, k) of the row-normalized array. -/
def unitRow (X : (⟨2, ![8192, 1024]⟩ : Shape).Idx → EReal) (r : Fin 8192) (k : Fin 1024) : EReal :=
  Ideal.div (X (ix2 r k)) (Ideal.sqrt (sumSq X r + epsW))

/-- Similarity of query row r and key row j: the dot product of the normalized rows. -/
def simOf (X Y : (⟨2, ![8192, 1024]⟩ : Shape).Idx → EReal) (r j : Fin 8192) : EReal :=
  ∑ k : Fin 1024, unitRow X r k * unitRow Y j k

/-- The labels of query row r and key row j agree. -/
def sameOf (T U : (⟨1, ![8192]⟩ : Shape).Idx → BitVec 32) (r j : Fin 8192) : BitVec 1 :=
  IntOp.cmpi .eq (T (ix1 r)) (U (ix1 j))

/-- The loss of the four arguments. -/
def lossOf (X Y : (⟨2, ![8192, 1024]⟩ : Shape).Idx → EReal) (T U : (⟨1, ![8192]⟩ : Shape).Idx → BitVec 32) : EReal :=
  total (simOf X Y) (sameOf T U)

end Cert.Loss

end
-- ==== Proof.Normalized.lean ====
/-
  The arrays the region finds, read at an index in terms of the program's arguments.

  Before the region the host normalizes each embedding array row by row — the row's sum of squares from the zero word,
  plus a small word, under a square root, broadcast back along the row, dividing the entry — and narrows the result,
  which over the extended reals changes nothing; and it reshapes the two label vectors to a column and to a row.
  So entry (r, k) of the normalized queries is the normalized entry of the first argument, and the labels are the
  label arguments' entries.
-/
import proofs.«157751_j10222022165007_1_alg».proof.Proof.BlockReads
import proofs.«157751_j10222022165007_1_alg».proof.Proof.LossOfArrays
import proofs.«157751_j10222022165007_1_alg».proof.Proof.LibColumns
import Idealize.ShloMosaic.Lib.StableHlo.Run
import Idealize.ShloMosaic.PureOps.Ideal.Laws

noncomputable section

open Idealize.ShloMosaic Idealize.ShloMosaic.TcCoe Idealize.SL.Sem Idealize.ShloMosaic.ValueIdx Idealize.ShloMosaic.StableHlo

namespace Cert.KernelIdeal.Prefix

open Cert.KernelIdeal Cert.KernelIdeal.Gen Cert.KernelIdeal.Blocks Cert.Loss Cert.LibColumns

variable (m : (ℓ : Loc nD τ sig) → Buf (Elt Ideal) ℓ)

/-- An [a] array cast to the row [1, a] reads, at (u, j), the operand at j, whatever the unit coordinate. -/
theorem shapeCast_a_1a_apply {α : Type} {a : ℕ} (x : (⟨1, ![a]⟩ : Shape).Idx → α) (h : (⟨1, ![a]⟩ : Shape).ShapeCasts ⟨2, ![1, a]⟩)
    (u : Fin 1) (j : Fin a) : shapeCast ⟨2, ![1, a]⟩ x h (ix2 u j) = x (ix1 j) :=
  shapeCast_apply x h _ _ (by
    have hu : u.val = 0 := by omega
    rw [Shape.rowMajor_val_two, Shape.rowMajor_val_one]
    show j.val = u.val * a + j.val
    rw [hu, Nat.zero_mul, Nat.zero_add])

/-- The host's sum of a row's squares, from the zero word. -/
theorem sumSq_read (X : FVec Ideal S8192x1024 .f32) (r : Fin 8192) :
    Host.reduceAdd (F := Ideal) (mulf X X) (constant S_ .f32 0x00000000#32) reducesTo_S8192x1024_S8192_d1 h_S_ (ix1 r) = sumSq X r := by
  unfold sumSq
  simp only [Host.reduceAdd, Ideal.hostReduceAdd_def]
  rw [Ideal.hostReduceAdd_single reducesTo_S8192x1024_S8192_d1 (by decide)]
  refine congrArg (_ + ·) (Finset.sum_congr rfl fun k _ => ?_)
  exact congrArg (fun i => X i * X i) (funext fun a => Fin.ext (by match a with | ⟨0, _⟩ => rfl | ⟨1, _⟩ => rfl))

/-- The normalized and narrowed array at (r, k): the entry over the square root of the row's sum of squares plus the
    small word. -/
theorem unitRow_read (X : FVec Ideal S8192x1024 .f32) (r : Fin 8192) (k : Fin 1024) :
    truncf (F := Ideal) .bf16 (Host.divf X (broadcastInDim S8192x1024 ![0, 1] bcast_S8192x1_S8192x1024_0_1
      (Host.sqrt (addf (broadcastInDim S8192x1 ![0] bcast_S8192_S8192x1_0
          (Host.reduceAdd (mulf X X) (constant S_ .f32 0x00000000#32) reducesTo_S8192x1024_S8192_d1 h_S_))
        (broadcastInDim S8192x1 ![] bcast_S_S8192x1 (constant S_ .f32 0x2B8CBCCC#32)))))) bitsLt_bf16_f32 (ix2 r k)
      = unitRow X r k := by
  show Ideal.div (X (ix2 r k)) (broadcastInDim (s := S8192x1) S8192x1024 ![0, 1] bcast_S8192x1_S8192x1024_0_1 _ (ix2 r k)) = _
  rw [broadcastInDim_apply (s := S8192x1) (t := S8192x1024) ![0, 1] bcast_S8192x1_S8192x1024_0_1 _ (ix2 r k) (ix2 r (0 : Fin 1)) (fun a => by
    match a with
    | ⟨0, _⟩ => rfl
    | ⟨1, _⟩ => rfl)]
  show Ideal.div (X (ix2 r k)) (Ideal.sqrt (broadcastInDim (s := S8192) S8192x1 ![0] bcast_S8192_S8192x1_0 _ (ix2 r (0 : Fin 1))
    + broadcastInDim (s := S_) S8192x1 ![] bcast_S_S8192x1 _ (ix2 r (0 : Fin 1)))) = _
  rw [broadcastInDim_apply (s := S8192) (t := S8192x1) ![0] bcast_S8192_S8192x1_0 _ (ix2 r (0 : Fin 1)) (ix1 r) (fun a => by
    match a with
    | ⟨0, _⟩ => rfl), sumSq_read]
  rfl

theorem queries_apply (c : Dev nD) (r : Fin 8192) (k : Fin 1024) :
    queries m c (ix2 r k) = unitRow (m ((c : Thread nD τ).loc main_arg0)) r k := by
  show StableHlo.after hostOps0 (fun b => m (c, b)) (Proc.devRef .tc main_v8) (ix2 r k) = _
  after_results
  exact unitRow_read _ r k

theorem keys_apply (c : Dev nD) (j : Fin 8192) (k : Fin 1024) :
    keys m c (ix2 j k) = unitRow (m ((c : Thread nD τ).loc main_arg2)) j k := by
  show StableHlo.after hostOps0 (fun b => m (c, b)) (Proc.devRef .tc main_v17) (ix2 j k) = _
  after_results
  exact unitRow_read _ j k

theorem queryLabels_apply (c : Dev nD) (r : Fin 8192) (u : Fin 1) :
    queryLabels m c (ix2 r u) = m ((c : Thread nD τ).loc main_arg1) (ix1 r) := by
  show StableHlo.after hostOps0 (fun b => m (c, b)) (Proc.devRef .tc main_v18) (ix2 r u) = _
  after_results
  exact shapeCast_a_a1_apply (a := 8192) _ shapeCasts_S8192_S8192x1 r u

theorem keyLabels_apply (c : Dev nD) (u : Fin 1) (j : Fin 8192) :
    keyLabels m c (ix2 u j) = m ((c : Thread nD τ).loc main_arg3) (ix1 j) := by
  show StableHlo.after hostOps0 (fun b => m (c, b)) (Proc.devRef .tc main_v19) (ix2 u j) = _
  after_results
  exact shapeCast_a_1a_apply (a := 8192) _ shapeCasts_S8192_S1x8192 u j

end Cert.KernelIdeal.Prefix

end
-- ==== Proof.KernelLoss.lean ====
/-
  The idealized kernel program's result: the loss of its four arguments.

  The similarity and agreement matrices of the arrays the region finds are those of the arguments (the host's
  normalization and reshapes read at an index); the region leaves every row's loss in its result array; the host sums
  that array from the zero word and divides by the row count word. So every execution ends with the result at the loss
  of the arguments, the arguments unchanged.
-/
import proofs.«157751_j10222022165007_1_alg».proof.Proof.RowLosses
import proofs.«157751_j10222022165007_1_alg».proof.Proof.Normalized

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.Whole

open Cert.KernelIdeal Cert.KernelIdeal.Gen Cert.KernelIdeal.Blocks Cert.KernelIdeal.Rows Cert.KernelIdeal.Result
  Cert.KernelIdeal.Prefix Cert.Loss

variable (m : (ℓ : Loc nD τ sig) → Buf (Elt Ideal) ℓ) (ρ : Dev nD → PrngReg)

/-- The found arrays' similarity matrix is the arguments'. -/
theorem simK_eq (c : Dev nD) :
    simK m c = simOf (m ((c.tc : Thread nD τ).loc main_arg0)) (m ((c.tc : Thread nD τ).loc main_arg2)) := by
  funext r j
  unfold simK simOf
  exact Finset.sum_congr rfl fun k _ => by rw [queries_apply, keys_apply]

/-- The found label arrays' agreement matrix is the arguments'. -/
theorem sameK_eq (c : Dev nD) :
    sameK m c = sameOf (m ((c.tc : Thread nD τ).loc main_arg1)) (m ((c.tc : Thread nD τ).loc main_arg3)) := by
  funext r j
  unfold sameK sameOf
  rw [queryLabels_apply, keyLabels_apply]

/-- What the host computes after the region: the rows' losses summed from the zero word, over the row count word. -/
theorem tail_value (c : Dev nD) :
    Pipeline.afterTail₀ cfgs (dats m) 0 (V0 m) [hostOps1] c main_v22
      = fun _ => lossOf (m ((c.tc : Thread nD τ).loc main_arg0)) (m ((c.tc : Thread nD τ).loc main_arg2)) (m ((c.tc : Thread nD τ).loc main_arg1)) (m ((c.tc : Thread nD τ).loc main_arg3)) := by
  unfold Pipeline.afterTail₀
  show StableHlo.after hostOps1 _ (Proc.devRef .tc main_v22) = _
  after_results
  rw [show Pipeline.withArrays (cfgs 0).spec c (V0 m c) (fun w => (dats m 0 c).arrAt w (cfgs 0).N) (Proc.tc.devRef main_v20)
      = rowLosses m c from (Pipeline.withArrays_arr spec0 launch0.win.arr_inj c _ _ 4).trans (final m c)]
  funext j
  unfold lossOf
  rw [← simK_eq, ← sameK_eq]
  show Ideal.div (Host.reduceAdd (F := Ideal) (rowLosses m c) (constant S_ .f32 0x00000000#32) reducesTo_S8192x1_S_d0_1 h_S_ j) countW
    = total (simK m c) (sameK m c)
  unfold total
  refine congrArg (fun x => Ideal.div x countW) ?_
  simp only [Host.reduceAdd, Ideal.hostReduceAdd_def]
  rw [Ideal.hostReduceAdd_total reducesTo_S8192x1_S_d0_1 (fun b => b.elim0)]
  refine congrArg (_ + ·) ?_
  rw [sum_idx2]
  refine Finset.sum_congr rfl fun r _ => ?_
  rw [Fin.sum_univ_one]
  rfl

/-- Every execution of the idealized kernel program ends with its result at the loss of the arguments, the arguments
    unchanged. -/
theorem run : θ_run defs (onTc (τ := τ) (main (F := Ideal))) ⟨m, fun _ => 0, ρ⟩ fun r => ∀ c : Dev nD,
      r.2.mem ((c.tc : Thread nD τ).loc main_v22)
          = (fun _ => lossOf (m ((c.tc : Thread nD τ).loc main_arg0)) (m ((c.tc : Thread nD τ).loc main_arg2)) (m ((c.tc : Thread nD τ).loc main_arg1)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v22 (Pipeline.mem_restRefs_of main_v22 (by decide) (by decide))).trans (tail_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Whole

end
-- ==== Proof.ReferenceStages.lean ====
/-
  The reference program's fold of its 62 operations, read at the result buffer, stage by stage.

  The operation list is cut in three stretches. The first (operations 0 to 20) normalizes the two embedding arrays: it
  reads the two float arguments and writes the normalized queries and the transposed normalized keys. The second
  (operations 21 to 26) reads those two and the two label arguments and writes the similarity matrix and the
  label-agreement matrix. The third (operations 27 to 61) reads only those two matrices and writes the loss.
  Each stretch is run from an ARBITRARY valuation, so that what a later stretch reads of an earlier one is a name and
  not the earlier stretch's term: no term grows with the length of the program. Composing the three gives the result
  buffer's contents after the whole list as the last stage of the program's stage-by-stage value, and the four
  arguments unchanged.
-/
import proofs.«157751_j10222022165007_1_alg».proof.Proof.RefReadP

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

/-- The fold over two lists run one after the other is the fold over the second from the fold over the first. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- Operations 0 to 20: the two normalizations and the transpose. -/
abbrev opsA : List (HloOp τ sig (Elt F)) := (ops (F := F)).take 21
/-- Operations 21 to 26: the similarity matrix and the label-agreement matrix. -/
abbrev opsB : List (HloOp τ sig (Elt F)) := ((ops (F := F)).drop 21).take 6
/-- Operations 27 to 61: the masks, the three selections, the row sums and the mean. -/
abbrev opsC : List (HloOp τ sig (Elt F)) := (ops (F := F)).drop 27

/-- The operation list is the three stretches in order. -/
theorem ops_eq : (ops : List (HloOp τ sig (Elt F))) = opsA ++ (opsB ++ opsC) := rfl

/-- The first stretch, from any valuation: the normalized queries and the transposed normalized keys are the stages of
    the two float arguments, and the two label arguments are untouched. -/
theorem stretchA (W : Valuation τ sig (Elt F)) :
    after opsA W (Proc.devRef .tc main_v7) = val_main_v7 (F := F) (W (Proc.devRef .tc main_arg0))
    ∧ after opsA W (Proc.devRef .tc main_v16) = val_main_v16 (F := F) (W (Proc.devRef .tc main_arg2))
    ∧ after opsA W (Proc.devRef .tc main_arg1) = W (Proc.devRef .tc main_arg1)
    ∧ after opsA W (Proc.devRef .tc main_arg3) = W (Proc.devRef .tc main_arg3) := by
  simp only [opsA, ops, List.take_succ_cons, List.take_zero]
  refine ⟨?_, ?_, ?_, ?_⟩ <;> after_results_simp <;> rfl

/-- The second stretch, from any valuation: the similarity matrix is the dot product of what the valuation holds as
    normalized queries and transposed keys, the agreement matrix the comparison of the two label arguments. -/
theorem stretchB (W : Valuation τ sig (Elt F)) :
    after opsB W (Proc.devRef .tc main_v17)
        = Host.dotGeneral dot_S8192x1024_S1024x8192_S8192x8192_1_0_0_1_n_n none (W (Proc.devRef .tc main_v7)) (W (Proc.devRef .tc main_v16))
    ∧ after opsB W (Proc.devRef .tc main_v22) = val_main_v22 (F := F) (W (Proc.devRef .tc main_arg1)) (W (Proc.devRef .tc main_arg3)) := by
  simp only [opsB, ops, List.drop_succ_cons, List.drop_zero, List.take_succ_cons, List.take_zero]
  refine ⟨?_, ?_⟩ <;> after_results_simp <;> rfl

/-! ## The typed references' transports at the literal references

A called function's operations move a value between the type its text states and the type of the buffer that holds it.
At a literal reference the two types are the same type, so the transport of a value is the value. -/

/-- Moving a value to a typed reference's buffer type and back gives the value. -/
theorem ofBuf_toBuf {T : BufTy} (y : TRef sig T) (v : T.Contents (Elt F)) : y.ofBuf (y.toBuf v) = v :=
  eq_of_heq ((cast_heq _ _).trans (cast_heq _ _))

theorem toBuf_main_v38 (v : (⟨S8192, .f32⟩ : BufTy).Contents (Elt F)) :
    (TRef.of (T := ⟨S8192, .f32⟩) main_v38).toBuf (Val := Elt F) v = v := eq_of_heq (cast_heq _ _)
theorem toBuf_main_v32 (v : (⟨S8192x8192, .f32⟩ : BufTy).Contents (Elt F)) :
    (TRef.of (T := ⟨S8192x8192, .f32⟩) main_v32).toBuf (Val := Elt F) v = v := eq_of_heq (cast_heq _ _)
theorem toBuf_main_v34 (v : (⟨S8192x8192, .f32⟩ : BufTy).Contents (Elt F)) :
    (TRef.of (T := ⟨S8192x8192, .f32⟩) main_v34).toBuf (Val := Elt F) v = v := eq_of_heq (cast_heq _ _)
theorem ofBuf_main_v36 (v : (⟨S8192, .i1⟩ : BufTy).Contents (Elt F)) :
    (TRef.of (T := ⟨S8192, .i1⟩) main_v36).ofBuf (Val := Elt F) v = v := eq_of_heq (cast_heq _ _)
theorem ofBuf_main_v37 (v : (⟨S8192, .f32⟩ : BufTy).Contents (Elt F)) :
    (TRef.of (T := ⟨S8192, .f32⟩) main_v37).ofBuf (Val := Elt F) v = v := eq_of_heq (cast_heq _ _)
theorem ofBuf_main_v25 (v : (⟨S8192x8192, .i1⟩ : BufTy).Contents (Elt F)) :
    (TRef.of (T := ⟨S8192x8192, .i1⟩) main_v25).ofBuf (Val := Elt F) v = v := eq_of_heq (cast_heq _ _)
theorem ofBuf_main_v31 (v : (⟨S8192x8192, .f32⟩ : BufTy).Contents (Elt F)) :
    (TRef.of (T := ⟨S8192x8192, .f32⟩) main_v31).ofBuf (Val := Elt F) v = v := eq_of_heq (cast_heq _ _)
theorem ofBuf_main_cst_6 (v : (⟨S_, .f32⟩ : BufTy).Contents (Elt F)) :
    (TRef.of (T := ⟨S_, .f32⟩) main_cst_6).ofBuf (Val := Elt F) v = v := eq_of_heq (cast_heq _ _)
theorem ofBuf_main_v29 (v : (⟨S8192x8192, .i1⟩ : BufTy).Contents (Elt F)) :
    (TRef.of (T := ⟨S8192x8192, .i1⟩) main_v29).ofBuf (Val := Elt F) v = v := eq_of_heq (cast_heq _ _)
theorem ofBuf_main_v17 (v : (⟨S8192x8192, .f32⟩ : BufTy).Contents (Elt F)) :
    (TRef.of (T := ⟨S8192x8192, .f32⟩) main_v17).ofBuf (Val := Elt F) v = v := eq_of_heq (cast_heq _ _)
theorem ofBuf_main_cst_8 (v : (⟨S_, .f32⟩ : BufTy).Contents (Elt F)) :
    (TRef.of (T := ⟨S_, .f32⟩) main_cst_8).ofBuf (Val := Elt F) v = v := eq_of_heq (cast_heq _ _)
theorem ofBuf_main_cst_10 (v : (⟨S_, .f32⟩ : BufTy).Contents (Elt F)) :
    (TRef.of (T := ⟨S_, .f32⟩) main_cst_10).ofBuf (Val := Elt F) v = v := eq_of_heq (cast_heq _ _)

/-- The third stretch, from any valuation that holds the similarity and agreement stages: the result is the last stage. -/
theorem stretchC (W : Valuation τ sig (Elt F))
    (x0 : (⟨S8192x1024, .f32⟩ : BufTy).Contents (Elt F)) (x1 : (⟨S8192, .i32⟩ : BufTy).Contents (Elt F))
    (x2 : (⟨S8192x1024, .f32⟩ : BufTy).Contents (Elt F)) (x3 : (⟨S8192, .i32⟩ : BufTy).Contents (Elt F))
    (h17 : W (Proc.devRef .tc main_v17) = val_main_v17 (F := F) x0 x2)
    (h22 : W (Proc.devRef .tc main_v22) = val_main_v22 (F := F) x1 x3) :
    after opsC W (Proc.devRef .tc main_v40) = val_main_v40 (F := F) x0 x1 x2 x3 := by
  simp only [opsC, ops, List.drop_succ_cons, List.drop_zero]
  after_results_simp
  simp only [ofBuf_toBuf, toBuf_main_v38, toBuf_main_v32, toBuf_main_v34, ofBuf_main_v36, ofBuf_main_v37, ofBuf_main_v25, ofBuf_main_v31, ofBuf_main_cst_6, ofBuf_main_v29, ofBuf_main_v17, ofBuf_main_cst_8, ofBuf_main_cst_10]
  rw [h17, h22]
  rfl

/-! ## The whole list -/

/-- After the whole list the result buffer holds the last stage of the four arguments' contents. -/
theorem after_v40 (V : Valuation τ sig (Elt F)) :
    after ops V (Proc.devRef .tc main_v40)
      = val_main_v40 (F := F) (V (Proc.devRef .tc main_arg0)) (V (Proc.devRef .tc main_arg1))
          (V (Proc.devRef .tc main_arg2)) (V (Proc.devRef .tc main_arg3)) := by
  obtain ⟨hA7, hA16, hA1, hA3⟩ := stretchA V
  obtain ⟨hB17, hB22⟩ := stretchB (after opsA V)
  rw [ops_eq, after_append, after_append]
  refine stretchC (after opsB (after opsA V)) _ _ _ _ ?_ ?_
  · rw [hB17, hA7, hA16]
    rfl
  · rw [hB22, hA1, hA3]

/-- No operation writes an argument's buffer: after the whole list each holds what it held. -/
theorem after_arg0 (V : Valuation τ sig (Elt F)) :
    after ops V (Proc.devRef .tc main_arg0) = V (Proc.devRef .tc main_arg0) := by
  after_results_simp <;> rfl
theorem after_arg1 (V : Valuation τ sig (Elt F)) :
    after ops V (Proc.devRef .tc main_arg1) = V (Proc.devRef .tc main_arg1) := by
  after_results_simp <;> rfl
theorem after_arg2 (V : Valuation τ sig (Elt F)) :
    after ops V (Proc.devRef .tc main_arg2) = V (Proc.devRef .tc main_arg2) := by
  after_results_simp <;> rfl
theorem after_arg3 (V : Valuation τ sig (Elt F)) :
    after ops V (Proc.devRef .tc main_arg3) = V (Proc.devRef .tc main_arg3) := by
  after_results_simp <;> rfl

end Cert.ReferenceIdeal.Hand

end
-- ==== Proof.ReferenceLoss.lean ====
/-
  The reference program's last stage, read index by index, is the contrastive loss of the four arguments.

  Each stage of the program is read at an index given by its coordinates. A keepdims broadcast reads its operand at the
  row; the transpose swaps the coordinates; the dot product at (r, j) is the sum over the 1024 features of the
  normalized query row r times the normalized key row j; a row reduction at r is its initial word plus the sum over the
  row's 8192 columns, and the disjunction over a row is the fold of the bits of that row from the clear bit. Read so,
  the stages are, in order: the sum of squares plus the small word, the normalized rows, the similarity and the
  agreement bit, the two masks, the two selected contributions and their row sums, the row's flag, the row's loss, and
  the sum of the rows' losses over the row count.
-/
import proofs.«157751_j10222022165007_1_alg».proof.Proof.RefReadP
import proofs.«157751_j10222022165007_1_alg».proof.Proof.LossOfArrays
import proofs.«157751_j10222022165007_1_alg».proof.Proof.LibColumns

noncomputable section

namespace Cert.ReferenceIdeal.Hand

open Cert.ReferenceIdeal Cert.ReferenceIdeal.Gen Idealize.ShloMosaic Idealize.ShloMosaic.ValueIdx
open Cert.ReferenceIdeal.ReadP Cert.Loss

/-- A float argument: an 8192 by 1024 array of extended reals. -/
abbrev FArr : Type := (⟨S8192x1024, .f32⟩ : BufTy).Contents (Elt Ideal)
/-- A label argument: 8192 words. -/
abbrev LArr : Type := (⟨S8192, .i32⟩ : BufTy).Contents (Elt Ideal)

/-! ## Sums over a rank-1 index set -/

/-- A rank-1 index set is its coordinate range … -/
def idxEquiv1 {n : Nat} : (⟨1, ![n]⟩ : Shape).Idx ≃ Fin n where
  toFun i := i 0
  invFun r := ix1 r
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ r : Fin n, f (ix1 r) := by
  rw [← Equiv.sum_comp (idxEquiv1 (n := n)).symm f]
  rfl

/-! ## The stages' operand indices, by coordinates -/

theorem idx1_at (r : Fin 8192) (k : Fin 1024) : idx_main_v1 (ix1 r) k = ix2 r k := by
  funext a; match a with | ⟨0, _⟩ => rfl | ⟨1, _⟩ => rfl
theorem idx5_at (r : Fin 8192) (u : Fin 1) : idx_main_v5 (ix2 r u) = ix1 r := by
  funext a; match a with | ⟨0, _⟩ => rfl
theorem idx6_at (r : Fin 8192) (k : Fin 1024) : idx_main_v6 (ix2 r k) = ix2 r (0 : Fin 1) := by
  funext a; match a with | ⟨0, _⟩ => rfl | ⟨1, _⟩ => rfl
theorem idx16_at (k : Fin 1024) (j : Fin 8192) : idx_main_v16 (ix2 k j) = ix2 j k := by
  funext a; match a with | ⟨0, _⟩ => rfl | ⟨1, _⟩ => rfl
theorem lidx17_at (r j : Fin 8192) (k : Fin 1024) : lidx_main_v17 (ix2 r j) k = ix2 r k := by
  funext a; match a with | ⟨0, _⟩ => rfl | ⟨1, _⟩ => rfl
theorem ridx17_at (r j : Fin 8192) (k : Fin 1024) : ridx_main_v17 (ix2 r j) k = ix2 k j := by
  funext a; match a with | ⟨0, _⟩ => rfl | ⟨1, _⟩ => rfl
theorem idx18_20_at (r j : Fin 8192) : idx_main_v18 (idx_main_v20 (ix2 r j)) = ix1 r := by
  funext a; match a with | ⟨0, _⟩ => rfl
theorem idx19_21_at (r j : Fin 8192) : idx_main_v19 (idx_main_v21 (ix2 r j)) = ix1 j := by
  funext a; match a with | ⟨0, _⟩ => rfl
theorem idx33_at (r k : Fin 8192) : idx_main_v33 (ix1 r) k = ix2 r k := by
  funext a; match a with | ⟨0, _⟩ => rfl | ⟨1, _⟩ => rfl
theorem idx35_at (r k : Fin 8192) : idx_main_v35 (ix1 r) k = ix2 r k := by
  funext a; match a with | ⟨0, _⟩ => rfl | ⟨1, _⟩ => rfl

/-! ## The normalization -/

section Stages
variable (X Y : FArr) (T U : LArr)

/-- Under the square root at row r: the row's sum of squares plus the small word. -/
theorem v3_at (r : Fin 8192) : val_main_v3 (F := Ideal) X (ix1 r) = sumSq X r + epsW := by
  rw [val_main_v3_apply, val_main_v1_apply, val_main_v2_apply]
  show (zeroW + ∑ k : Fin 1024, val_main_v0 (F := Ideal) X (idx_main_v1 (ix1 r) k)) + epsW
      = (zeroW + ∑ k : Fin 1024, X (ix2 r k) * X (ix2 r k)) + epsW
  refine congrArg (· + epsW) (congrArg (zeroW + ·) (Finset.sum_congr rfl fun k _ => ?_))
  rw [idx1_at, val_main_v0_apply]
  rfl

/-- The normalized array at (r, k). -/
theorem v7_at (r : Fin 8192) (k : Fin 1024) : val_main_v7 (F := Ideal) X (ix2 r k) = unitRow X r k := by
  rw [val_main_v7_apply, val_main_v6_apply, idx6_at, val_main_v5_apply, idx5_at, val_main_v4_apply, v3_at]
  rfl

/-- The second array is normalized by the same operations as the first. -/
theorem v15_eq : val_main_v15 (F := Ideal) Y = val_main_v7 (F := Ideal) Y := rfl

/-- The transposed normalized keys at (k, j). -/
theorem v16_at (k : Fin 1024) (j : Fin 8192) : val_main_v16 (F := Ideal) Y (ix2 k j) = unitRow Y j k := by
  rw [val_main_v16_apply, idx16_at, v15_eq, v7_at]

/-! ## The similarity and the agreement bit -/

theorem v17_at (r j : Fin 8192) : val_main_v17 (F := Ideal) X Y (ix2 r j) = simOf X Y r j := by
  rw [val_main_v17_apply]
  unfold simOf
  refine Finset.sum_congr rfl fun k _ => ?_
  rw [lidx17_at, ridx17_at, v7_at, v16_at]

theorem v22_at (r j : Fin 8192) : val_main_v22 (F := Ideal) T U (ix2 r j) = sameOf T U r j := by
  rw [val_main_v22_apply, val_main_v20_apply, val_main_v18_apply, val_main_v21_apply, val_main_v19_apply,
    idx18_20_at, idx19_21_at]
  rfl

/-! ## The masks and the selected contributions -/

theorem v25_at (r j : Fin 8192) :
    val_main_v25 (F := Ideal) X T Y U (ix2 r j) = posBit (sameOf T U r j) (simOf X Y r j) := by
  rw [val_main_v25_apply, val_main_v24_apply, val_main_v23_apply, v22_at, v17_at]
  rfl

theorem v29_at (r j : Fin 8192) :
    val_main_v29 (F := Ideal) X T Y U (ix2 r j) = negBit (sameOf T U r j) (simOf X Y r j) := by
  rw [val_main_v29_apply, val_main_v26_apply, val_main_v28_apply, val_main_v27_apply, v22_at, v17_at, not_eq_xor_one]
  rfl

theorem v32_at (r j : Fin 8192) :
    val_main_v32 (F := Ideal) X T Y U (ix2 r j) = posTerm (sameOf T U r j) (simOf X Y r j) := by
  rw [val_main_v32_apply, v25_at, val_main_v31_apply, val_main_v30_apply, v17_at, val_main_call0_v1_apply]
  rfl

theorem v34_at (r j : Fin 8192) :
    val_main_v34 (F := Ideal) X T Y U (ix2 r j) = negTerm (sameOf T U r j) (simOf X Y r j) := by
  rw [val_main_v34_apply, v29_at, v17_at, val_main_call1_v1_apply]
  rfl

/-! ## The rows -/

theorem v33_at (r : Fin 8192) :
    val_main_v33 (F := Ideal) X T Y U (ix1 r) = zeroW + rowPos (simOf X Y) (sameOf T U) r := by
  rw [val_main_v33_apply]
  unfold rowPos
  refine congrArg₂ (· + ·) rfl (Finset.sum_congr rfl fun k _ => ?_)
  rw [idx33_at, v32_at]

theorem v35_at (r : Fin 8192) :
    val_main_v35 (F := Ideal) X T Y U (ix1 r) = zeroW + rowNeg (simOf X Y) (sameOf T U) r := by
  rw [val_main_v35_apply]
  unfold rowNeg
  refine congrArg₂ (· + ·) rfl (Finset.sum_congr rfl fun k _ => ?_)
  rw [idx35_at, v34_at]

/-- The row's flag: the disjunction, from the clear bit, of the row's positive bits. -/
theorem v36_at (r : Fin 8192) :
    val_main_v36 (F := Ideal) X T Y U (ix1 r) = rowAny (simOf X Y) (sameOf T U) r := by
  have h : S8192x8192.Reduces [1] S8192 := by decide
  unfold val_main_v36
  rw [Host.reduce_eq_fold_single IntOp.ori _ _ reducesTo_S8192x8192_S8192_d1 h h_S_ (ix1 r)]
  have hf : (val_main_v25 (F := Ideal) X T Y U ∘ h.lift (ix1 r))
      = fun j : Fin 8192 => posBit (sameOf T U r j) (simOf X Y r j) := funext fun k => by
    show val_main_v25 (F := Ideal) X T Y U (h.lift (ix1 r) k) = _
    rw [Cert.LibColumns.lift_axis1 h r k]
    exact v25_at X Y T U r _
  rw [hf]
  rfl

theorem v38_at (r : Fin 8192) :
    val_main_v38 (F := Ideal) X T Y U (ix1 r) = rowLoss (simOf X Y) (sameOf T U) r := by
  rw [val_main_v38_apply, v36_at, val_main_v37_apply, v33_at, v35_at, val_main_call2_v1_apply]
  rfl

/-! ## The loss -/

/-- The program's last stage is the loss of the four arguments, at its one index. -/
theorem v40_eq : val_main_v40 (F := Ideal) X T Y U = fun _ => lossOf X Y T U := by
  funext i
  rw [val_main_v40_apply, val_main_v39_apply, sum_idx1]
  simp only [v38_at]
  rfl

end Stages

end Cert.ReferenceIdeal.Hand

end
-- ==== Proof.ReferenceRun.lean ====
/-
  The reference program's run, stated against the contrastive loss of its four arguments.

  Every weakly fair execution of the reference's @main terminates with each buffer at the fold of the 62 operations over
  the launch contents. Read at the result buffer, the fold is the program's last stage of the four arguments' launch
  contents, and that stage is the loss; read at an argument's buffer, no operation writes it, so it holds what it held.
-/
import proofs.«157751_j10222022165007_1_alg».proof.Proof.ReferenceStages
import proofs.«157751_j10222022165007_1_alg».proof.Proof.ReferenceLoss

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

/-- On every device, from any memory with zero counters: every weakly fair execution of the reference's @main
    terminates with the result buffer holding the loss of the four arguments' launch contents, and the arguments
    unchanged. -/
theorem run (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩ fun r => ∀ c : Dev nD,
      r.2.mem ((c.tc : Thread nD τ).loc main_v40)
          = (fun _ => Cert.Loss.lossOf (m ((c.tc : Thread nD τ).loc main_arg0)) (m ((c.tc : Thread nD τ).loc main_arg2))
              (m ((c.tc : Thread nD τ).loc main_arg1)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨(h c main_v40).trans ((after_v40 (launchContents m c)).trans
          (v40_eq (launchContents m c (Proc.devRef .tc main_arg0)) (launchContents m c (Proc.devRef .tc main_arg2))
            (launchContents m c (Proc.devRef .tc main_arg1)) (launchContents m c (Proc.devRef .tc main_arg3)))),
       (h c main_arg0).trans (after_arg0 (launchContents m c)),
       (h c main_arg1).trans (after_arg1 (launchContents m c)),
       (h c main_arg2).trans (after_arg2 (launchContents m c)),
       (h c main_arg3).trans (after_arg3 (launchContents m c))⟩)
    (run_after (F := Ideal) m ρ)

end Cert.ReferenceIdeal.Hand

end
-- ==== Proof.lean ====
/-
  The contrastive-loss kernel against its reference, over the extended reals.

  Both programs normalize the rows of two 8192 x 1024 embedding arrays, form the 8192 x 8192 matrix of dot products of
  normalized rows, and compare two label vectors entry against entry. A pair (r, j) is positive when the labels agree
  and the similarity is below a cap, negative when they differ and it is above a margin; a row's loss is the sum of
  (1 - similarity) over its positive pairs plus the sum of the similarity over its negative pairs when it has a positive
  pair, and zero otherwise; the result is the rows' losses summed and divided by the row count.

  The reference computes this with whole-matrix operations. The kernel walks a 16 x 16 grid of 512 x 512 tiles, row tile
  by row tile: at a row tile's first column tile it clears three per-row accumulators, at every tile it adds the tile's
  positive and negative row sums into two of them and takes the maximum of the third with the tile's 0/1 "has a
  positive pair" flags, and after the last column tile it stores each row's loss. Over the extended reals the two
  agree: a row's sum over 8192 columns is the sum over the 16 tiles of the sums within each tile (addition is
  commutative and associative, so no finiteness of the inputs is used); and the running maximum of flags, started at
  zero, exceeds one half exactly when some pair of the row is positive, which is the reference's disjunction.

  The frames of the two kernel programs are the generated ones; the reference's frame is its run with the result
  dropped; the idealization rewrote nothing, so its statement is trivial.
-/
import proofs.«157751_j10222022165007_1_alg».proof.Defs
import proofs.«157751_j10222022165007_1_alg».proof.Proof.Gen.Kernel
import proofs.«157751_j10222022165007_1_alg».proof.Proof.Gen.Kernel.Frame
import proofs.«157751_j10222022165007_1_alg».proof.Proof.Gen.KernelIdeal
import proofs.«157751_j10222022165007_1_alg».proof.Proof.Gen.KernelIdeal.Frame
import proofs.«157751_j10222022165007_1_alg».proof.Proof.Gen.ReferenceIdeal
import proofs.«157751_j10222022165007_1_alg».proof.Proof.Gen.Pre_finite_inputs
import proofs.«157751_j10222022165007_1_alg».proof.Proof.KernelLoss
import proofs.«157751_j10222022165007_1_alg».proof.Proof.ReferenceRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_referenceIdeal : Cert.frame_ReferenceIdeal := fun m ρ _ =>
  (θ_run Cert.ReferenceIdeal.defs _ _).mono (fun _ h c => (h c).2) (Cert.ReferenceIdeal.Hand.run m ρ)

theorem preserves : Cert.preserves_Kernel_KernelIdeal := trivial

/-- Both idealized programs end with the loss of the arguments; from memories that agree on the arguments these are
    one value. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩) (Cert.ReferenceIdeal.Hand.run m' ρ')
  rw [(hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
